-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.truncf_extf.Statement Cert.KernelIdeal.S1024x2304 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x48x48 : Shape := ⟨4, ![2, 64, 48, 48]⟩
abbrev S2x64x4x48x48 : Shape := ⟨5, ![2, 64, 4, 48, 48]⟩
abbrev S2x512x4x48x48 : Shape := ⟨5, ![2, 512, 4, 48, 48]⟩
abbrev S_ : Shape := ⟨0, ![]⟩

class Facts : Prop where
  bcast_S_S2x64x48x48 : S_.BroadcastsInDim S2x64x48x48 (![] : Fin 0 → Fin S2x64x48x48.rank)
  reducesTo_S2x64x48x48_S_d0_1_2_3 : S2x64x48x48.ReducesTo [0, 1, 2, 3] S_
  h_S_ : 0 < S_.numel
  bcast_S_S2x64x4x48x48 : S_.BroadcastsInDim S2x64x4x48x48 (![] : Fin 0 → Fin S2x64x4x48x48.rank)
  reducesTo_S2x64x4x48x48_S_d0_1_2_3_4 : S2x64x4x48x48.ReducesTo [0, 1, 2, 3, 4] S_
  bcast_S_S2x512x4x48x48 : S_.BroadcastsInDim S2x512x4x48x48 (![] : Fin 0 → Fin S2x512x4x48x48.rank)
  reducesTo_S2x512x4x48x48_S_d0_1_2_3_4 : S2x512x4x48x48.ReducesTo [0, 1, 2, 3, 4] S_

variable [Facts]

def fn {F : FTy → Type} [FloatOps F] (main_arg0 : FVec F S2x64x48x48 .f32) (main_arg1 : FVec F S2x64x4x48x48 .f32) (main_arg2 : FVec F S2x512x4x48x48 .f32) : IVec S_ 1 :=
  let main_v0 : FVec F S2x64x48x48 .f32 := Host.absf main_arg0
  let main_cst : FVec F S_ .f32 := constant S_ .f32 0x7F800000#32
  let main_v1 : FVec F S2x64x48x48 .f32 := broadcastInDim S2x64x48x48 ![] bcast_S_S2x64x48x48 main_cst
  let main_v2 : IVec S2x64x48x48 1 := cmpf .olt main_v0 main_v1
  let main_c : IVec S_ 1 := constantI S_ 1 1#1
  let main_v3 : IVec S_ 1 := (fun x v => Host.reduce IntOp.andi x v reducesTo_S2x64x48x48_S_d0_1_2_3 h_S_) main_v2 main_c
  let main_v4 : FVec F S2x64x4x48x48 .f32 := Host.absf main_arg1
  let main_cst_0 : FVec F S_ .f32 := constant S_ .f32 0x7F800000#32
  let main_v5 : FVec F S2x64x4x48x48 .f32 := broadcastInDim S2x64x4x48x48 ![] bcast_S_S2x64x4x48x48 main_cst_0
  let main_v6 : IVec S2x64x4x48x48 1 := cmpf .olt main_v4 main_v5
  let main_c_1 : IVec S_ 1 := constantI S_ 1 1#1
  let main_v7 : IVec S_ 1 := (fun x v => Host.reduce IntOp.andi x v reducesTo_S2x64x4x48x48_S_d0_1_2_3_4 h_S_) main_v6 main_c_1
  let main_v8 : IVec S_ 1 := andi main_v3 main_v7
  let main_v9 : FVec F S2x512x4x48x48 .f32 := Host.absf main_arg2
  let main_cst_2 : FVec F S_ .f32 := constant S_ .f32 0x7F800000#32
  let main_v10 : FVec F S2x512x4x48x48 .f32 := broadcastInDim S2x512x4x48x48 ![] bcast_S_S2x512x4x48x48 main_cst_2
  let main_v11 : IVec S2x512x4x48x48 1 := cmpf .olt main_v9 main_v10
  let main_c_3 : IVec S_ 1 := constantI S_ 1 1#1
  let main_v12 : IVec S_ 1 := (fun x v => Host.reduce IntOp.andi x v reducesTo_S2x512x4x48x48_S_d0_1_2_3_4 h_S_) main_v11 main_c_3
  let main_v13 : IVec S_ 1 := andi main_v8 main_v12
  main_v13
-- ==== Kernel.lean ====
abbrev S2x64x48x48 : Shape := ⟨4, ![2, 64, 48, 48]⟩
abbrev S2x64x4x48x48 : Shape := ⟨5, ![2, 64, 4, 48, 48]⟩
abbrev S2x512x4x48x48 : Shape := ⟨5, ![2, 512, 4, 48, 48]⟩
abbrev S2x64x2304 : Shape := ⟨3, ![2, 64, 2304]⟩
abbrev S2x64x9216 : Shape := ⟨3, ![2, 64, 9216]⟩
abbrev S2x512x9216 : Shape := ⟨3, ![2, 512, 9216]⟩
abbrev S2x512x2304 : Shape := ⟨3, ![2, 512, 2304]⟩
abbrev S1x64x2304 : Shape := ⟨3, ![1, 64, 2304]⟩
abbrev S1x64x1024 : Shape := ⟨3, ![1, 64, 1024]⟩
abbrev S1x512x1024 : Shape := ⟨3, ![1, 512, 1024]⟩
abbrev S1x512x2304 : Shape := ⟨3, ![1, 512, 2304]⟩
abbrev S1x2304 : Shape := ⟨2, ![1, 2304]⟩
abbrev S512x2304 : Shape := ⟨2, ![512, 2304]⟩
abbrev S64x2304 : Shape := ⟨2, ![64, 2304]⟩
abbrev S2304 : Shape := ⟨1, ![2304]⟩
abbrev S64x1024 : Shape := ⟨2, ![64, 1024]⟩
abbrev S1024 : Shape := ⟨1, ![1024]⟩
abbrev S1x1024 : Shape := ⟨2, ![1, 1024]⟩
abbrev S1024x2304 : Shape := ⟨2, ![1024, 2304]⟩
abbrev S512x1024 : Shape := ⟨2, ![512, 1024]⟩
abbrev S2x512x48x48 : Shape := ⟨4, ![2, 512, 48, 48]⟩

abbrev nBuf : Space → Nat
  | .hbm => 8
  | .vmem => 10
  | .smem => 0
  | _ => 0

abbrev bufTy : (tb : Table) → Fin (tcTables nBuf tb) → BufTy
  | .hbm, ⟨0, _⟩ => ⟨S2x64x48x48, .f32⟩
  | .hbm, ⟨1, _⟩ => ⟨S2x64x4x48x48, .f32⟩
  | .hbm, ⟨2, _⟩ => ⟨S2x512x4x48x48, .f32⟩
  | .hbm, ⟨3, _⟩ => ⟨S2x64x2304, .f32⟩
  | .hbm, ⟨4, _⟩ => ⟨S2x64x9216, .f32⟩
  | .hbm, ⟨5, _⟩ => ⟨S2x512x9216, .f32⟩
  | .hbm, ⟨6, _⟩ => ⟨S2x512x2304, .f32⟩
  | .hbm, ⟨7, _⟩ => ⟨S2x512x48x48, .f32⟩
  | .local _ .vmem, ⟨0, _⟩ => ⟨S1x64x2304, .f32⟩
  | .local _ .vmem, ⟨1, _⟩ => ⟨S1x64x2304, .f32⟩
  | .local _ .vmem, ⟨2, _⟩ => ⟨S1x64x1024, .f32⟩
  | .local _ .vmem, ⟨3, _⟩ => ⟨S1x64x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x2304, .f32⟩
  | .local _ .vmem, ⟨7, _⟩ => ⟨S1x512x2304, .f32⟩
  | .local _ .vmem, ⟨8, _⟩ => ⟨S1x2304, .f32⟩
  | .local _ .vmem, ⟨9, _⟩ => ⟨S512x2304, .f32⟩
  | _, _ => ⟨S2x64x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg1 : BitVec 32 := BitVec.ofNat 32 (i 1).val
  let c8_i32 : BitVec 32 := 8#32
  let v45 : BitVec 1 := Scalar.cmpi .eq arg1 c8_i32
  let v46 : BitVec 32 := Scalar.extui v45
  let c0_i32_24 : BitVec 32 := 0#32
  let v47 : BitVec 1 := Scalar.cmpi .ne v46 c0_i32_24
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2x64x48x48_S2x64x2304 : S2x64x48x48.ShapeCasts S2x64x2304
  shapeCasts_S2x64x4x48x48_S2x64x9216 : S2x64x4x48x48.ShapeCasts S2x64x9216
  shapeCasts_S2x512x4x48x48_S2x512x9216 : S2x512x4x48x48.ShapeCasts S2x512x9216
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  inb_S512x2304_S512x2304_0_0 : ∀ a, (![0, 0] : Fin 2 → Nat) a + S512x2304.size a ≤ S512x2304.size a
  h_S512x2304 : 0 < S512x2304.numel
  shapeCasts_S512x2304_S512x2304 : S512x2304.ShapeCasts S512x2304
  inb_S1x64x2304_S1x64x2304_0_0_0 : ∀ a, (![0, 0, 0] : Fin 3 → Nat) a + S1x64x2304.size a ≤ S1x64x2304.size a
  h_S1x64x2304 : 0 < S1x64x2304.numel
  shapeCasts_S1x64x2304_S64x2304 : S1x64x2304.ShapeCasts S64x2304
  reduces_S64x2304_S2304 : S64x2304.Reduces [0] S2304
  shapeCasts_S2304_S1x2304 : S2304.ShapeCasts S1x2304
  broadcasts_S1x2304_S64x2304 : S1x2304.Broadcasts S64x2304
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  reduces_S64x1024_S1024 : S64x1024.Reduces [0] S1024
  shapeCasts_S1024_S1x1024 : S1024.ShapeCasts S1x1024
  broadcasts_S1x1024_S64x1024 : S1x1024.Broadcasts S64x1024
  bitsLt_bf16_f32 : FTy.bits .bf16 < FTy.bits .f32
  reduces_S1024x2304_S2304 : S1024x2304.Reduces [0] S2304
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x2304_S512x2304 : S1x2304.Broadcasts S512x2304
  inb_S1x512x2304_S1x512x2304_0_0_0 : ∀ a, (![0, 0, 0] : Fin 3 → Nat) a + S1x512x2304.size a ≤ S1x512x2304.size a
  h_S1x512x2304 : 0 < S1x512x2304.numel
  shapeCasts_S1x512x2304_S512x2304 : S1x512x2304.ShapeCasts S512x2304
  shapeCasts_S512x2304_S1x512x2304 : S512x2304.ShapeCasts S1x512x2304
  shapeCasts_S2x512x2304_S2x512x48x48 : S2x512x2304.ShapeCasts S2x512x48x48
  dot_S64x1024_S64x2304_S1024x2304_0_0_1_1_n_n_wf : DotDims.WF S64x1024 S64x2304 S1024x2304 [0] [0] [1] [1] [] []
  dot_S512x1024_S1024x2304_S512x2304_1_0_0_1_n_n_wf : DotDims.WF S512x1024 S1024x2304 S512x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2304.size a ≤ S2x64x2304.size a
  hwx0_0 : ∀ i : grid0.Coords, EltTy.bits .f32 = 32 ∨ (Rect.block (s := S2x64x2304) S1x64x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S2x64x9216.size a
  hwx0_1 : ∀ i : grid0.Coords, EltTy.bits .f32 = 32 ∨ (Rect.block (s := S2x64x9216) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S2x512x9216.size a
  hwx0_2 : ∀ i : grid0.Coords, EltTy.bits .f32 = 32 ∨ (Rect.block (s := S2x512x9216) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2304.size a ≤ S2x512x2304.size a
  hwx0_3 : ∀ i : grid0.Coords, EltTy.bits .f32 = 32 ∨ (Rect.block (s := S2x512x2304) S1x512x2304.size (cc0_transform_3 i) (hinb0_3 i)).WholeWords (EltTy.packing .f32)

variable [Facts₀]

def dot_S64x1024_S64x2304_S1024x2304_0_0_1_1_n_n : DotDims S64x1024 S64x2304 S1024x2304 where
  lhsContracting := [0]
  rhsContracting := [0]
  lhsNonContracting := [1]
  rhsNonContracting := [1]
  lhsBatch := []
  rhsBatch := []
  wf := dot_S64x1024_S64x2304_S1024x2304_0_0_1_1_n_n_wf
def dot_S512x1024_S1024x2304_S512x2304_1_0_0_1_n_n : DotDims S512x1024 S1024x2304 S512x2304 where
  lhsContracting := [1]
  rhsContracting := [0]
  lhsNonContracting := [0]
  rhsNonContracting := [1]
  lhsBatch := []
  rhsBatch := []
  wf := dot_S512x1024_S1024x2304_S512x2304_1_0_0_1_n_n_wf

abbrev win0_0 : Pipeline.Window sig grid0 :=
  Pipeline.Window.ofSpec (Memref.whole main_v0) S1x64x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x64x48x48 : Shape := ⟨4, ![2, 64, 48, 48]⟩
abbrev S2x64x4x48x48 : Shape := ⟨5, ![2, 64, 4, 48, 48]⟩
abbrev S2x512x4x48x48 : Shape := ⟨5, ![2, 512, 4, 48, 48]⟩
abbrev S_ : Shape := ⟨0, ![]⟩
abbrev S2x48x48 : Shape := ⟨3, ![2, 48, 48]⟩
abbrev S2x1x48x48 : Shape := ⟨4, ![2, 1, 48, 48]⟩
abbrev S2x4x48x48 : Shape := ⟨4, ![2, 4, 48, 48]⟩
abbrev S2x1x4x48x48 : Shape := ⟨5, ![2, 1, 4, 48, 48]⟩
abbrev S2x64x2304 : Shape := ⟨3, ![2, 64, 2304]⟩
abbrev S2x64x9216 : Shape := ⟨3, ![2, 64, 9216]⟩
abbrev S2x512x9216 : Shape := ⟨3, ![2, 512, 9216]⟩
abbrev S2x9216x2304 : Shape := ⟨3, ![2, 9216, 2304]⟩
abbrev S2x2304 : Shape := ⟨2, ![2, 2304]⟩
abbrev S2x1x2304 : Shape := ⟨3, ![2, 1, 2304]⟩
abbrev S2x512x2304 : Shape := ⟨3, ![2, 512, 2304]⟩
abbrev S2x512x48x48 : Shape := ⟨4, ![2, 512, 48, 48]⟩

abbrev nBuf : Space → Nat
  | .hbm => 46
  | .vmem => 0
  | .smem => 0
  | _ => 0

abbrev bufTy : (tb : Table) → Fin (tcTables nBuf tb) → BufTy
  | .hbm, ⟨0, _⟩ => ⟨S2x64x48x48, .f32⟩
  | .hbm, ⟨1, _⟩ => ⟨S2x64x4x48x48, .f32⟩
  | .hbm, ⟨2, _⟩ => ⟨S2x512x4x48x48, .f32⟩
  | .hbm, ⟨3, _⟩ => ⟨S2x64x48x48, .f32⟩
  | .hbm, ⟨4, _⟩ => ⟨S_, .f32⟩
  | .hbm, ⟨5, _⟩ => ⟨S2x48x48, .f32⟩
  | .hbm, ⟨6, _⟩ => ⟨S2x1x48x48, .f32⟩
  | .hbm, ⟨7, _⟩ => ⟨S2x1x48x48, .f32⟩
  | .hbm, ⟨8, _⟩ => ⟨S_, .f32⟩
  | .hbm, ⟨9, _⟩ => ⟨S2x1x48x48, .f32⟩
  | .hbm, ⟨10, _⟩ => ⟨S2x1x48x48, .f32⟩
  | .hbm, ⟨11, _⟩ => ⟨S2x64x48x48, .f32⟩
  | .hbm, ⟨12, _⟩ => ⟨S2x64x48x48, .f32⟩
  | .hbm, ⟨13, _⟩ => ⟨S2x64x4x48x48, .f32⟩
  | .hbm, ⟨14, _⟩ => ⟨S_, .f32⟩
  | .hbm, ⟨15, _⟩ => ⟨S2x4x48x48, .f32⟩
  | .hbm, ⟨16, _⟩ => ⟨S2x1x4x48x48, .f32⟩
  | .hbm, ⟨17, _⟩ => ⟨S2x1x4x48x48, .f32⟩
  | .hbm, ⟨18, _⟩ => ⟨S_, .f32⟩
  | .hbm, ⟨19, _⟩ => ⟨S2x1x4x48x48, .f32⟩
  | .hbm, ⟨20, _⟩ => ⟨S2x1x4x48x48, .f32⟩
  | .hbm, ⟨21, _⟩ => ⟨S2x64x4x48x48, .f32⟩
  | .hbm, ⟨22, _⟩ => ⟨S2x64x4x48x48, .f32⟩
  | .hbm, ⟨23, _⟩ => ⟨S2x64x2304, .f32⟩
  | .hbm, ⟨24, _⟩ => ⟨S2x64x9216, .f32⟩
  | .hbm, ⟨25, _⟩ => ⟨S2x512x9216, .f32⟩
  | .hbm, ⟨26, _⟩ => ⟨S2x9216x2304, .f32⟩
  | .hbm, ⟨27, _⟩ => ⟨S_, .f32⟩
  | .hbm, ⟨28, _⟩ => ⟨S2x9216x2304, .f32⟩
  | .hbm, ⟨29, _⟩ => ⟨S2x9216x2304, .f32⟩
  | .hbm, ⟨30, _⟩ => ⟨S_, .f32⟩
  | .hbm, ⟨31, _⟩ => ⟨S2x2304, .f32⟩
  | .hbm, ⟨32, _⟩ => ⟨S_, .f32⟩
  | .hbm, ⟨33, _⟩ => ⟨S2x2304, .f32⟩
  | .hbm, ⟨34, _⟩ => ⟨S2x2304, .f32⟩
  | .hbm, ⟨35, _⟩ => ⟨S2x1x2304, .f32⟩
  | .hbm, ⟨36, _⟩ => ⟨S2x9216x2304, .f32⟩
  | .hbm, ⟨37, _⟩ => ⟨S2x9216x2304, .f32⟩
  | .hbm, ⟨38, _⟩ => ⟨S2x9216x2304, .f32⟩
  | .hbm, ⟨39, _⟩ => ⟨S_, .f32⟩
  | .hbm, ⟨40, _⟩ => ⟨S2x2304, .f32⟩
  | .hbm, ⟨41, _⟩ => ⟨S2x1x2304, .f32⟩
  | .hbm, ⟨42, _⟩ => ⟨S2x9216x2304, .f32⟩
  | .hbm, ⟨43, _⟩ => ⟨S2x9216x2304, .f32⟩
  | .hbm, ⟨44, _⟩ => ⟨S2x512x2304, .f32⟩
  | .hbm, ⟨45, _⟩ => ⟨S2x512x48x48, .f32⟩
  | _, _ => ⟨S2x64x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  reducesTo_S2x64x48x48_S2x48x48_d1 : S2x64x48x48.ReducesTo [1] S2x48x48
  h_S_ : 0 < S_.numel
  bcast_S2x48x48_S2x1x48x48_0_2_3 : S2x48x48.BroadcastsInDim S2x1x48x48 (![0, 2, 3] : Fin 3 → Fin S2x1x48x48.rank)
  bcast_S_S2x1x48x48 : S_.BroadcastsInDim S2x1x48x48 (![] : Fin 0 → Fin S2x1x48x48.rank)
  bcast_S2x1x48x48_S2x64x48x48_0_1_2_3 : S2x1x48x48.BroadcastsInDim S2x64x48x48 (![0, 1, 2, 3] : Fin 4 → Fin S2x64x48x48.rank)
  reducesTo_S2x64x4x48x48_S2x4x48x48_d1 : S2x64x4x48x48.ReducesTo [1] S2x4x48x48
  bcast_S2x4x48x48_S2x1x4x48x48_0_2_3_4 : S2x4x48x48.BroadcastsInDim S2x1x4x48x48 (![0, 2, 3, 4] : Fin 4 → Fin S2x1x4x48x48.rank)
  bcast_S_S2x1x4x48x48 : S_.BroadcastsInDim S2x1x4x48x48 (![] : Fin 0 → Fin S2x1x4x48x48.rank)
  bcast_S2x1x4x48x48_S2x64x4x48x48_0_1_2_3_4 : S2x1x4x48x48.BroadcastsInDim S2x64x4x48x48 (![0, 1, 2, 3, 4] : Fin 5 → Fin S2x64x4x48x48.rank)
  shapeCasts_S2x64x48x48_S2x64x2304 : S2x64x48x48.ShapeCasts S2x64x2304
  shapeCasts_S2x64x4x48x48_S2x64x9216 : S2x64x4x48x48.ShapeCasts S2x64x9216
  shapeCasts_S2x512x4x48x48_S2x512x9216 : S2x512x4x48x48.ShapeCasts S2x512x9216
  bcast_S_S2x9216x2304 : S_.BroadcastsInDim S2x9216x2304 (![] : Fin 0 → Fin S2x9216x2304.rank)
  reducesTo_S2x9216x2304_S2x2304_d1 : S2x9216x2304.ReducesTo [1] S2x2304
  bcast_S_S2x2304 : S_.BroadcastsInDim S2x2304 (![] : Fin 0 → Fin S2x2304.rank)
  bcast_S2x2304_S2x1x2304_0_2 : S2x2304.BroadcastsInDim S2x1x2304 (![0, 2] : Fin 2 → Fin S2x1x2304.rank)
  bcast_S2x1x2304_S2x9216x2304_0_1_2 : S2x1x2304.BroadcastsInDim S2x9216x2304 (![0, 1, 2] : Fin 3 → Fin S2x9216x2304.rank)
  shapeCasts_S2x512x2304_S2x512x48x48 : S2x512x2304.ShapeCasts S2x512x48x48
  dot_S2x64x9216_S2x64x2304_S2x9216x2304_1_1_2_2_0_0_wf : DotDims.WF S2x64x9216 S2x64x2304 S2x9216x2304 [1] [1] [2] [2] [0] [0]
  dot_S2x512x9216_S2x9216x2304_S2x512x2304_2_1_1_2_0_0_wf : DotDims.WF S2x512x9216 S2x9216x2304 S2x512x2304 [2] [1] [1] [2] [0] [0]

variable [Facts₀]

def dot_S2x64x9216_S2x64x2304_S2x9216x2304_1_1_2_2_0_0 : DotDims S2x64x9216 S2x64x2304 S2x9216x2304 where
  lhsContracting := [1]
  rhsContracting := [1]
  lhsNonContracting := [2]
  rhsNonContracting := [2]
  lhsBatch := [0]
  rhsBatch := [0]
  wf := dot_S2x64x9216_S2x64x2304_S2x9216x2304_1_1_2_2_0_0_wf
def dot_S2x512x9216_S2x9216x2304_S2x512x2304_2_1_1_2_0_0 : DotDims S2x512x9216 S2x9216x2304 S2x512x2304 where
  lhsContracting := [2]
  rhsContracting := [1]
  lhsNonContracting := [1]
  rhsNonContracting := [2]
  lhsBatch := [0]
  rhsBatch := [0]
  wf := dot_S2x512x9216_S2x9216x2304_S2x512x2304_2_1_1_2_0_0_wf

class Facts : Prop extends Facts₀ where

variable [Facts]
-- ==== Proof.Spec.lean ====
/-
  Scaled-dot-product attention over unit-length keys, as two formulas of the same three arrays.

  For a batch `b`, a query position `q` and a memory position `mm`, the score is
  `c · ∑_d û(K b · mm) d · û(Q b · q) d`, where `û` rescales a 64-vector to unit length.
  The streaming kernel rescales by `x · rsqrt (max (∑ x²) ε)`, the textbook by `x / max (sqrt (∑ x²)) δ`;
  the two agree when `ε = δ²` and `δ > 0`.  The kernel then returns the quotient of two sums of unnormalised
  exponentials, the textbook a sum over a softmax stabilised by subtracting a maximum; over real numbers these are
  the same number, whatever real shift is subtracted.
-/
import Idealize.ShloMosaic.PureOps.Ideal

noncomputable section

namespace Cert.Attn

open Idealize.ShloMosaic

/-- The squared length of a 64-vector. -/
def sq (x : Fin 64 → EReal) : EReal := ∑ d, x d * x d

/-- Rescaling to unit length with the guard INSIDE the square root: `x · (max (∑ x²) ε)^(-1/2)`. -/
def unitK (eps : EReal) (x : Fin 64 → EReal) (d : Fin 64) : EReal := x d * Ideal.rsqrt (max (sq x) eps)

/-- Rescaling to unit length with the guard OUTSIDE the square root: `x / max (√(∑ x²)) δ`. -/
def unitR (del : EReal) (x : Fin 64 → EReal) (d : Fin 64) : EReal := Ideal.div (x d) (max (Ideal.sqrt (sq x)) del)

/-- The score of memory position `mm` against query position `q` in batch `b`, under a rescaling `u`. -/
def score (c : EReal) (u : (Fin 64 → EReal) → Fin 64 → EReal) (Q : Fin 2 → Fin 64 → Fin 2304 → EReal)
    (K : Fin 2 → Fin 64 → Fin 9216 → EReal) (b : Fin 2) (mm : Fin 9216) (q : Fin 2304) : EReal :=
  c * ∑ d, u (fun d' => K b d' mm) d * u (fun d' => Q b d' q) d

/-- The streaming form: the exponential-weighted sum of the values over the sum of the exponentials. -/
def streamed (eps c : EReal) (Q : Fin 2 → Fin 64 → Fin 2304 → EReal) (K : Fin 2 → Fin 64 → Fin 9216 → EReal)
    (W : Fin 2 → Fin 512 → Fin 9216 → EReal) (b : Fin 2) (v : Fin 512) (q : Fin 2304) : EReal :=
  Ideal.div (∑ mm, W b v mm * Ideal.exp (score c (unitK eps) Q K b mm q))
    (∑ mm, Ideal.exp (score c (unitK eps) Q K b mm q))

/-- The shift the stabilised softmax subtracts: the running maximum of the scores, started from `⊥`. -/
def shift (s : Fin 9216 → EReal) : EReal := max ⊥ ((Finset.univ : Finset (Fin 9216)).fold max ⊥ s)

/-- The textbook form: the values weighted by the softmax of the scores over the memory axis, the softmax
    stabilised by subtracting the scores' maximum. -/
def softmaxed (del c : EReal) (Q : Fin 2 → Fin 64 → Fin 2304 → EReal) (K : Fin 2 → Fin 64 → Fin 9216 → EReal)
    (W : Fin 2 → Fin 512 → Fin 9216 → EReal) (b : Fin 2) (v : Fin 512) (q : Fin 2304) : EReal :=
  ∑ mm, W b v mm * Ideal.div
    (Ideal.exp (score c (unitR del) Q K b mm q - shift (fun mm' => score c (unitR del) Q K b mm' q)))
    (∑ m2, Ideal.exp (score c (unitR del) Q K b m2 q - shift (fun mm' => score c (unitR del) Q K b mm' q)))

end Cert.Attn

end
-- ==== Proof.Unit.lean ====
/-
  The two ways of rescaling a real 64-vector to unit length agree: with the guard inside the square root at the
  square of the guard outside it, `x · (max (∑ x²) δ²)^(-1/2) = x / max (√(∑ x²)) δ`, since for `s ≥ 0` and `δ > 0`
  `max s δ² = (max (√s) δ)²`.  Both are real numbers when the vector's entries are.
-/
import proofs.«110047_g31954556682489_cont_9to1_1970_15_alg».proof.Proof.Spec

noncomputable section

namespace Cert.Attn

open Idealize.ShloMosaic

/-- A finite sum of real numbers, taken in the extended reals, is the real sum. -/
private theorem coe_finset_sum {ι : Type*} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The larger of two real numbers, taken in the extended reals, is the real maximum. -/
private theorem coe_max (a b : ℝ) : ((max a b : ℝ) : EReal) = max (a : EReal) (b : EReal) :=
  EReal.coe_strictMono.monotone.map_max

/-- The square root turns the guard inside into the guard outside: `√(max s δ²) = max (√s) δ` for `δ > 0`,
    because the square root is monotone and `√(δ²) = δ`. -/
private theorem sqrt_max_sq {s d : ℝ} (hd : 0 < d) : Real.sqrt (max s (d * d)) = max (Real.sqrt s) d := by
  have hdd : Real.sqrt (d * d) = d := Real.sqrt_mul_self hd.le
  rcases le_total s (d * d) with h | h
  · have h1 : Real.sqrt s ≤ d := by
      calc Real.sqrt s ≤ Real.sqrt (d * d) := Real.sqrt_le_sqrt h
        _ = d := hdd
    rw [max_eq_right h, max_eq_right h1, hdd]
  · have h1 : d ≤ Real.sqrt s := by
      calc d = Real.sqrt (d * d) := hdd.symm
        _ ≤ Real.sqrt s := Real.sqrt_le_sqrt h
    rw [max_eq_left h, max_eq_left h1]

/-- A vector of real entries has a real, non-negative squared length. -/
private theorem sq_real (x : Fin 64 → EReal) (hx : ∀ i, ∃ r : ℝ, x i = (r : EReal)) :
    ∃ s : ℝ, 0 ≤ s ∧ sq x = (s : EReal) := by
  choose r hr using hx
  refine ⟨∑ i, r i * r i, Finset.sum_nonneg (fun i _ => mul_self_nonneg (r i)), ?_⟩
  unfold sq
  rw [← coe_finset_sum]
  refine Finset.sum_congr rfl (fun i _ => ?_)
  rw [hr i, EReal.coe_mul]

/-- With the guard inside the root, the rescaled entry is the entry times the real `(max (√s) δ)⁻¹`. -/
private theorem unitK_form {d s : ℝ} (hd : 0 < d) (x : Fin 64 → EReal) (hs : sq x = (s : EReal)) (i : Fin 64) :
    unitK ((d * d : ℝ) : EReal) x i = x i * (((max (Real.sqrt s) d)⁻¹ : ℝ) : EReal) := by
  have hpos : 0 < max s (d * d) := lt_max_of_lt_right (mul_pos hd hd)
  unfold unitK
  rw [hs, ← coe_max, Ideal.rsqrt_coe, if_neg (not_lt.mpr hpos.le), if_neg hpos.ne', sqrt_max_sq hd]

/-- With the guard outside the root, likewise. -/
private theorem unitR_form {d s : ℝ} (hd : 0 < d) (h0 : 0 ≤ s) (x : Fin 64 → EReal) (hs : sq x = (s : EReal))
    (i : Fin 64) : unitR (d : EReal) x i = x i * (((max (Real.sqrt s) d)⁻¹ : ℝ) : EReal) := by
  have hne : max (Real.sqrt s) d ≠ 0 := (lt_max_of_lt_right hd).ne'
  unfold unitR
  rw [hs, Ideal.sqrt_coe, if_neg (not_lt.mpr h0), ← coe_max, Ideal.div_coe hne, one_div]

/-- For a real vector the two rescalings agree entry by entry, when `ε = δ²` and `δ > 0`. -/
theorem unitK_eq_unitR {e d : ℝ} (hd : 0 < d) (he : e = d * d) (x : Fin 64 → EReal)
    (hx : ∀ i, ∃ r : ℝ, x i = (r : EReal)) (i : Fin 64) : unitK (e : EReal) x i = unitR (d : EReal) x i := by
  obtain ⟨s, h0, hs⟩ := sq_real x hx
  rw [he, unitK_form hd x hs i, unitR_form hd h0 x hs i]

/-- and the rescaled entries are real. -/
theorem unitR_real {d : ℝ} (hd : 0 < d) (x : Fin 64 → EReal) (hx : ∀ i, ∃ r : ℝ, x i = (r : EReal)) (i : Fin 64) :
    ∃ r : ℝ, unitR (d : EReal) x i = (r : EReal) := by
  obtain ⟨s, h0, hs⟩ := sq_real x hx
  obtain ⟨r, hr⟩ := hx i
  exact ⟨r * (max (Real.sqrt s) d)⁻¹, by rw [unitR_form hd h0 x hs i, hr, EReal.coe_mul]⟩

end Cert.Attn

end
-- ==== Proof.Softmax.lean ====
/-
  Over real scores and real values the quotient of the exponential-weighted sum by the sum of exponentials is the
  softmax-weighted sum, whatever real number the softmax subtracts first: `exp (s - a) = exp s · exp (-a)` and the
  common factor cancels between numerator and denominator.
-/
import proofs.«110047_g31954556682489_cont_9to1_1970_15_alg».proof.Proof.Spec
import proofs.«110047_g31954556682489_cont_9to1_1970_15_alg».proof.Proof.Unit

noncomputable section

namespace Cert.Attn

open Idealize.ShloMosaic

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  refine Finset.induction_on s (by simp) ?_
  intro i s hi ih
  rw [Finset.sum_insert hi, Finset.sum_insert hi, ih, EReal.coe_add]

/-- The running maximum of finitely many real numbers, started from `⊥`, is `⊥` only over the empty index set;
    otherwise it is a real number. -/
theorem fold_max_real {ι : Type} (s : Finset ι) (f : ι → ℝ) :
    (s = ∅ ∧ s.fold max ⊥ (fun i => ((f i : ℝ) : EReal)) = ⊥) ∨
      ∃ a : ℝ, s.fold max ⊥ (fun i => ((f i : ℝ) : EReal)) = (a : EReal) := by
  classical
  refine Finset.induction_on s (Or.inl ⟨rfl, Finset.fold_empty⟩) ?_
  intro i s hi ih
  right
  rw [Finset.fold_insert hi]
  rcases ih with ⟨-, h⟩ | ⟨a, h⟩
  · exact ⟨f i, by rw [h]; exact max_eq_left bot_le⟩
  · refine ⟨max (f i) a, ?_⟩
    rw [h]
    rcases le_total (f i) a with hle | hle
    · rw [max_eq_right hle, max_eq_right (EReal.coe_le_coe_iff.mpr hle)]
    · rw [max_eq_left hle, max_eq_left (EReal.coe_le_coe_iff.mpr hle)]

/-- The shift subtracted by the stabilised softmax is a real number when the scores are. -/
theorem shift_real (f : Fin 9216 → ℝ) : ∃ a : ℝ, shift (fun i => ((f i : ℝ) : EReal)) = (a : EReal) := by
  rcases fold_max_real Finset.univ f with ⟨h, -⟩ | ⟨a, h⟩
  · exact absurd h (Finset.univ_nonempty (α := Fin 9216)).ne_empty
  · exact ⟨a, by rw [shift, h]; exact max_eq_right bot_le⟩

/-- Over real scores `σ`, real values `w` and any real shift `a`:
    `(∑ w·exp σ) / (∑ exp σ) = ∑ w · (exp (σ - a) / ∑ exp (σ - a))`.  Every sum of exponentials is a positive real,
    so each quotient is a product with a real reciprocal, and `exp (σ - a) = exp σ / exp a` cancels the shift. -/
theorem quotient_eq_softmax {ι : Type} [Fintype ι] [Nonempty ι] (w σ : ι → ℝ) (a : ℝ) :
    Ideal.div (∑ i, ((w i : ℝ) : EReal) * Ideal.exp ((σ i : ℝ) : EReal)) (∑ i, Ideal.exp ((σ i : ℝ) : EReal)) =
      ∑ i, ((w i : ℝ) : EReal) * Ideal.div (Ideal.exp (((σ i : ℝ) : EReal) - ((a : ℝ) : EReal)))
        (∑ j, Ideal.exp (((σ j : ℝ) : EReal) - ((a : ℝ) : EReal))) := by
  have hpos : 0 < ∑ i, Real.exp (σ i) := Finset.sum_pos (fun i _ => Real.exp_pos _) Finset.univ_nonempty
  have hpos' : 0 < ∑ i, Real.exp (σ i - a) := Finset.sum_pos (fun i _ => Real.exp_pos _) Finset.univ_nonempty
  simp only [Ideal.exp_coe, ← EReal.coe_sub, ← EReal.coe_mul, coe_sum]
  simp only [Ideal.div_coe hpos.ne', Ideal.div_coe hpos'.ne', ← EReal.coe_mul, coe_sum]
  congr 1
  have hsum : ∑ j, Real.exp (σ j - a) = (∑ j, Real.exp (σ j)) / Real.exp a := by
    rw [Finset.sum_div]
    exact Finset.sum_congr rfl (fun j _ => Real.exp_sub _ _)
  rw [hsum, Finset.sum_mul]
  refine Finset.sum_congr rfl (fun i _ => ?_)
  rw [Real.exp_sub]
  have hea : Real.exp a ≠ 0 := (Real.exp_pos a).ne'
  have hne : (∑ j, Real.exp (σ j)) ≠ 0 := hpos.ne'
  field_simp

/-- The streaming form equals the textbook form on real inputs, when `ε = δ²` and `δ > 0`. -/
theorem streamed_eq_softmaxed {e d c : ℝ} (hd : 0 < d) (he : e = d * d)
    (Q : Fin 2 → Fin 64 → Fin 2304 → EReal) (K : Fin 2 → Fin 64 → Fin 9216 → EReal)
    (W : Fin 2 → Fin 512 → Fin 9216 → EReal)
    (hQ : ∀ b i q, ∃ r : ℝ, Q b i q = (r : EReal)) (hK : ∀ b i mm, ∃ r : ℝ, K b i mm = (r : EReal))
    (hW : ∀ b v mm, ∃ r : ℝ, W b v mm = (r : EReal)) (b : Fin 2) (v : Fin 512) (q : Fin 2304) :
    streamed (e : EReal) (c : EReal) Q K W b v q = softmaxed (d : EReal) (c : EReal) Q K W b v q := by
  -- each score under the textbook rescaling is a real number
  have hs : ∀ mm, ∃ r : ℝ, score (c : EReal) (unitR (d : EReal)) Q K b mm q = (r : EReal) := by
    intro mm
    have hk : ∀ i, ∃ r : ℝ, unitR (d : EReal) (fun d' => K b d' mm) i = (r : EReal) :=
      fun i => unitR_real hd _ (fun j => hK b j mm) i
    have hq : ∀ i, ∃ r : ℝ, unitR (d : EReal) (fun d' => Q b d' q) i = (r : EReal) :=
      fun i => unitR_real hd _ (fun j => hQ b j q) i
    choose k hk using hk
    choose p hp using hq
    refine ⟨c * ∑ i, k i * p i, ?_⟩
    simp only [score, hk, hp, ← EReal.coe_mul, coe_sum]
  -- the two rescalings give the same score
  have hKR : ∀ mm, score (c : EReal) (unitK (e : EReal)) Q K b mm q =
      score (c : EReal) (unitR (d : EReal)) Q K b mm q := by
    intro mm
    simp only [score]
    congr 1
    refine Finset.sum_congr rfl (fun i _ => ?_)
    rw [unitK_eq_unitR hd he _ (fun j => hK b j mm), unitK_eq_unitR hd he _ (fun j => hQ b j q)]
  choose σ hσ using hs
  choose w hw using hW b v
  obtain ⟨a, ha⟩ := shift_real σ
  simp only [streamed, softmaxed, hKR, hσ, hw, ha]
  exact quotient_eq_softmax w σ a

end Cert.Attn

end
-- ==== Proof.Consts.lean ====
/-
  The float literals of the two programs as the real numbers they denote, and the kernel's named guard as the
  rational its table gives it: the guard inside the square root is the exact square of the guard outside it.
-/
import proofs.«110047_g31954556682489_cont_9to1_1970_15_alg».proof.KernelIdeal
import Idealize.ShloMosaic.PureOps.Ideal
import Idealize.ShloMosaic.PureOps.IdealRules

noncomputable section

namespace Cert.Consts

open Idealize.ShloMosaic

/-- The guard outside the square root: the f32 word `0x2B8CBCCC` is `2305843 / 2^61`.
    Sign 0, exponent field 87, fraction field 834764: `(2^23 + 834764) · 2^(87 - 127 - 23) = 9223372 / 2^63`. -/
theorem ofBits_del : Ideal.ofBits .f32 0x2B8CBCCC#32 = ((2305843 / 2305843009213693952 : ℝ) : EReal) := by
  simp [Ideal.ofBits, Ideal.ieee, -EReal.coe_mul]; norm_num

/-- The scale of the scores: the f32 word `0x42200000` is `40`.
    Sign 0, exponent field 132, fraction field 2^21: `(2^23 + 2^21) · 2^(132 - 127 - 23) = 10485760 / 2^18`. -/
theorem ofBits_forty : Ideal.ofBits .f32 0x42200000#32 = ((40 : ℝ) : EReal) := by
  simp [Ideal.ofBits, Ideal.ieee, -EReal.coe_mul]; norm_num

/-- The f32 word `0xFF800000` is `-∞`: sign 1, exponent field all ones, fraction field 0. -/
theorem ofBits_ninf : Ideal.ofBits .f32 0xFF800000#32 = (⊥ : EReal) := by
  simp [Ideal.ofBits, Ideal.ieee]

/-- The kernel's named guard denotes the rational its table gives it. -/
theorem named_eps : Named.named (F := Ideal) Cert.KernelIdeal.κ "eps_sq" (φ := .f32) 0x179ABE15#32
    = ((5316911940649 / 5316911983139663491615228241121378304 : ℝ) : EReal) :=
  IdealRules.named_const.ideal_named_scalar _ _ _ _ rfl

/-- That rational is the square of the guard outside the square root. -/
theorem eps_eq_sq : (5316911940649 / 5316911983139663491615228241121378304 : ℝ)
    = (2305843 / 2305843009213693952) * (2305843 / 2305843009213693952) := by
  norm_num

theorem del_pos : (0 : ℝ) < 2305843 / 2305843009213693952 := by
  norm_num

end Cert.Consts

end
-- ==== Proof.Finite.lean ====
/-
  The precondition says every entry of the three inputs has absolute value below `+∞`; an extended real with that
  property is a real number.
-/
import proofs.«110047_g31954556682489_cont_9to1_1970_15_alg».proof.Pre_finite_inputs
import proofs.«110047_g31954556682489_cont_9to1_1970_15_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The f32 word `0x7F800000` (all-ones exponent, zero fraction, sign clear) denotes `+∞`. -/
theorem inf_word : Ideal.ofBits .f32 0x7F800000#32 = (⊤ : EReal) := by
  simp [Ideal.ofBits, Ideal.ieee]

/-- An extended real whose absolute value `max x (-x)` compares strictly below the `+∞` word is a real number:
    `⊤` has absolute value `⊤`, and so has `⊥`, neither of which is below `⊤`. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- Under the precondition every entry of every input is a real number. -/
theorem finite_of_pre (x0 : FVec Ideal S2x64x48x48 .f32) (x1 : FVec Ideal S2x64x4x48x48 .f32)
    (x2 : FVec Ideal S2x512x4x48x48 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt (x0 i) (Host.reduce_andi_all _ _ _ _ _ h0' i)
  · exact real_of_abs_lt (x1 i) (Host.reduce_andi_all _ _ _ _ _ h1 i)
  · exact real_of_abs_lt (x2 i) (Host.reduce_andi_all _ _ _ _ _ h2 i)

end Cert.Finite

end
-- ==== Proof.RefValue.lean ====
/-
  The reference program read at an index: its result at `(b, v, q)` is the softmax-weighted sum of the values over the
  memory axis, the scores `40 · ∑_d` of the unit-length keys against the unit-length queries, each vector rescaled by
  `x / max (√(∑ x²)) δ` BEFORE the arrays are flattened — which commutes with the flattening, the rescaling being
  along the channel axis the flattening leaves alone.

  The road: the flattened position of `(b, d, mm)` in a `2 × 64 × 9216` array is `(b·64 + d)·9216 + mm`; its
  five unflattened coordinates are quotients and remainders of that number, and replacing the channel coordinate `d`
  by `k` on the unflattened side is the same as replacing it on the flattened side. So the sum of squares along the
  channel axis, taken before flattening at the unflattened position of `(b, d, mm)`, is the sum over `k` of the
  squares of the flattened array at `(b, k, mm)`. The same holds for the rank-4 query array. From there every stage is
  read at coordinates: the score, the running maximum (a fold of `max` from `-∞`), the sum of exponentials, the
  quotient, and the last contraction over the memory axis.
-/
import proofs.«110047_g31954556682489_cont_9to1_1970_15_alg».proof.Proof.Spec
import proofs.«110047_g31954556682489_cont_9to1_1970_15_alg».proof.Proof.Consts
import proofs.«110047_g31954556682489_cont_9to1_1970_15_alg».proof.Proof.Gen.ReferenceIdeal.Read

noncomputable section

namespace Cert.ReferenceIdeal.RefValue

open Cert.ReferenceIdeal Cert.ReferenceIdeal.Gen Idealize.ShloMosaic Idealize.ShloMosaic.TcCoe
open Cert.ReferenceIdeal.Read

/-! ### Flattening read at an index -/

/-- The flattened key array at an index is the unflattened one at the index's quotient-and-remainder coordinates. -/
theorem castK (x1 : (⟨S2x64x4x48x48, .f32⟩ : BufTy).Contents (Elt Ideal)) (i : S2x64x9216.Idx) :
    shapeCast S2x64x9216 x1 shapeCasts_S2x64x4x48x48_S2x64x9216 i = x1 (idx_main_v17 i) :=
  shapeCast_apply x1 shapeCasts_S2x64x4x48x48_S2x64x9216 i (idx_main_v17 i)
    (by rewrite [Shape.rowMajor_val_five, Shape.rowMajor_val_three]; have h0 : (i 0).val < 2 := (i 0).isLt; have h1 : (i 1).val < 64 := (i 1).isLt; have h2 : (i 2).val < 9216 := (i 2).isLt; show ((((((i 0).val * 64 + (i 1).val) * 9216 + (i 2).val) / 589824 * 64 + (((i 0).val * 64 + (i 1).val) * 9216 + (i 2).val) / 9216 % 64) * 4 + (((i 0).val * 64 + (i 1).val) * 9216 + (i 2).val) / 2304 % 4) * 48 + (((i 0).val * 64 + (i 1).val) * 9216 + (i 2).val) / 48 % 48) * 48 + (((i 0).val * 64 + (i 1).val) * 9216 + (i 2).val) % 48 = ((i 0).val * 64 + (i 1).val) * 9216 + (i 2).val; omega)

/-- The flattened query array at an index is the unflattened one at the index's quotient-and-remainder coordinates. -/
theorem castQ (x0 : (⟨S2x64x48x48, .f32⟩ : BufTy).Contents (Elt Ideal)) (i : S2x64x2304.Idx) :
    shapeCast S2x64x2304 x0 shapeCasts_S2x64x48x48_S2x64x2304 i = x0 (idx_main_v16 i) :=
  shapeCast_apply x0 shapeCasts_S2x64x48x48_S2x64x2304 i (idx_main_v16 i)
    (by rewrite [Shape.rowMajor_val_four, Shape.rowMajor_val_three]; have h0 : (i 0).val < 2 := (i 0).isLt; have h1 : (i 1).val < 64 := (i 1).isLt; have h2 : (i 2).val < 2304 := (i 2).isLt; show (((((i 0).val * 64 + (i 1).val) * 2304 + (i 2).val) / 147456 * 64 + (((i 0).val * 64 + (i 1).val) * 2304 + (i 2).val) / 2304 % 64) * 48 + (((i 0).val * 64 + (i 1).val) * 2304 + (i 2).val) / 48 % 48) * 48 + (((i 0).val * 64 + (i 1).val) * 2304 + (i 2).val) % 48 = ((i 0).val * 64 + (i 1).val) * 2304 + (i 2).val; omega)

/-- Replacing the channel coordinate commutes with unflattening, for the keys: the channel-axis sum's `k`-th index over
    the unflattened position of `(b, d, mm)` is the unflattened position of `(b, k, mm)`. -/
theorem chanK (b : Fin 2) (d k : Fin 64) (mm : Fin 9216) :
    idx_main_v9 (idx_main_v10 (idx_main_v14 (idx_main_v17 (ValueIdx.ix3 b d mm)))) k
      = idx_main_v17 (ValueIdx.ix3 b k mm) := by
  have hb := b.isLt; have hd := d.isLt; have hk := k.isLt; have hm := mm.isLt
  refine funext fun a => Fin.ext ?_
  match a with
  | ⟨0, _⟩ => show ((b.val * 64 + d.val) * 9216 + mm.val) / 589824 = ((b.val * 64 + k.val) * 9216 + mm.val) / 589824; omega
  | ⟨1, _⟩ => show k.val = ((b.val * 64 + k.val) * 9216 + mm.val) / 9216 % 64; omega
  | ⟨2, _⟩ => show ((b.val * 64 + d.val) * 9216 + mm.val) / 2304 % 4 = ((b.val * 64 + k.val) * 9216 + mm.val) / 2304 % 4; omega
  | ⟨3, _⟩ => show ((b.val * 64 + d.val) * 9216 + mm.val) / 48 % 48 = ((b.val * 64 + k.val) * 9216 + mm.val) / 48 % 48; omega
  | ⟨4, _⟩ => show ((b.val * 64 + d.val) * 9216 + mm.val) % 48 = ((b.val * 64 + k.val) * 9216 + mm.val) % 48; omega

/-- The same for the queries. -/
theorem chanQ (b : Fin 2) (d k : Fin 64) (q : Fin 2304) :
    idx_main_v1 (idx_main_v2 (idx_main_v6 (idx_main_v16 (ValueIdx.ix3 b d q)))) k
      = idx_main_v16 (ValueIdx.ix3 b k q) := by
  have hb := b.isLt; have hd := d.isLt; have hk := k.isLt; have hq := q.isLt
  refine funext fun a => Fin.ext ?_
  match a with
  | ⟨0, _⟩ => show ((b.val * 64 + d.val) * 2304 + q.val) / 147456 = ((b.val * 64 + k.val) * 2304 + q.val) / 147456; omega
  | ⟨1, _⟩ => show k.val = ((b.val * 64 + k.val) * 2304 + q.val) / 2304 % 64; omega
  | ⟨2, _⟩ => show ((b.val * 64 + d.val) * 2304 + q.val) / 48 % 48 = ((b.val * 64 + k.val) * 2304 + q.val) / 48 % 48; omega
  | ⟨3, _⟩ => show ((b.val * 64 + d.val) * 2304 + q.val) % 48 = ((b.val * 64 + k.val) * 2304 + q.val) % 48; omega

/-! ### The rescaled vectors, the score, the shift, the denominator -/

/-- The reference's rescaled key at `(b, d, mm)` is the flattened key column at `(b, ·, mm)`, rescaled to unit length. -/
theorem keyUnit (x1 : (⟨S2x64x4x48x48, .f32⟩ : BufTy).Contents (Elt Ideal)) (b : Fin 2) (d : Fin 64) (mm : Fin 9216) :
    val_main_v17 (F := Ideal) x1 (ValueIdx.ix3 b d mm)
      = Cert.Attn.unitR (Ideal.ofBits .f32 0x2B8CBCCC#32)
          (fun d' => shapeCast S2x64x9216 x1 shapeCasts_S2x64x4x48x48_S2x64x9216 (ValueIdx.ix3 b d' mm)) d := by
  rw [val_main_v17_apply, val_main_v15_apply, val_main_v14_apply, val_main_v13_apply, val_main_v11_apply,
    val_main_v12_apply, val_main_cst_2_apply, val_main_v10_apply, val_main_v9_apply, val_main_cst_1_apply]
  simp only [val_main_v8_apply, chanK, Cert.Attn.unitR, Cert.Attn.sq, Ideal.hostDivf_def, Ideal.maximumf_def,
    Ideal.hostUnary_sqrt_def, Ideal.mulf_def, Ideal.ofBits_def, Ideal.ofBits_zero_f32, zero_add]
  refine congrArg₂ Ideal.div (castK x1 _).symm
    (congrArg (fun s => max (Ideal.sqrt s) _) (Finset.sum_congr rfl fun k _ => ?_))
  rw [castK]

/-- The reference's rescaled query at `(b, d, q)` is the flattened query column at `(b, ·, q)`, rescaled to unit length. -/
theorem queryUnit (x0 : (⟨S2x64x48x48, .f32⟩ : BufTy).Contents (Elt Ideal)) (b : Fin 2) (d : Fin 64) (q : Fin 2304) :
    val_main_v16 (F := Ideal) x0 (ValueIdx.ix3 b d q)
      = Cert.Attn.unitR (Ideal.ofBits .f32 0x2B8CBCCC#32)
          (fun d' => shapeCast S2x64x2304 x0 shapeCasts_S2x64x48x48_S2x64x2304 (ValueIdx.ix3 b d' q)) d := by
  rw [val_main_v16_apply, val_main_v7_apply, val_main_v6_apply, val_main_v5_apply, val_main_v3_apply,
    val_main_v4_apply, val_main_cst_0_apply, val_main_v2_apply, val_main_v1_apply, val_main_cst_apply]
  simp only [val_main_v0_apply, chanQ, Cert.Attn.unitR, Cert.Attn.sq, Ideal.hostDivf_def, Ideal.maximumf_def,
    Ideal.hostUnary_sqrt_def, Ideal.mulf_def, Ideal.ofBits_def, Ideal.ofBits_zero_f32, zero_add]
  refine congrArg₂ Ideal.div (castQ x0 _).symm
    (congrArg (fun s => max (Ideal.sqrt s) _) (Finset.sum_congr rfl fun k _ => ?_))
  rw [castQ]

/-- The reference's score at `(b, mm, q)` is the textbook score of the flattened arrays. -/
theorem scoreAt (x0 : (⟨S2x64x48x48, .f32⟩ : BufTy).Contents (Elt Ideal))
    (x1 : (⟨S2x64x4x48x48, .f32⟩ : BufTy).Contents (Elt Ideal)) (b : Fin 2) (mm : Fin 9216) (q : Fin 2304) :
    val_main_v21 (F := Ideal) x0 x1 (ValueIdx.ix3 b mm q)
      = Cert.Attn.score (Ideal.ofBits .f32 0x42200000#32) (Cert.Attn.unitR (Ideal.ofBits .f32 0x2B8CBCCC#32))
          (fun b i q => shapeCast S2x64x2304 x0 shapeCasts_S2x64x48x48_S2x64x2304 (ValueIdx.ix3 b i q))
          (fun b i mm => shapeCast S2x64x9216 x1 shapeCasts_S2x64x4x48x48_S2x64x9216 (ValueIdx.ix3 b i mm))
          b mm q := by
  have el : ∀ k : Fin 64, lidx_main_v19 (ValueIdx.ix3 b mm q) k = ValueIdx.ix3 b k mm := fun k =>
    funext fun a => Fin.ext (by match a with | ⟨0, _⟩ => rfl | ⟨1, _⟩ => rfl | ⟨2, _⟩ => rfl)
  have er : ∀ k : Fin 64, ridx_main_v19 (ValueIdx.ix3 b mm q) k = ValueIdx.ix3 b k q := fun k =>
    funext fun a => Fin.ext (by match a with | ⟨0, _⟩ => rfl | ⟨1, _⟩ => rfl | ⟨2, _⟩ => rfl)
  rw [val_main_v21_apply, val_main_v20_apply, val_main_cst_3_apply, val_main_v19_apply]
  simp only [el, er, keyUnit, queryUnit, Cert.Attn.score, Ideal.mulf_def, Ideal.ofBits_def]

/-- The index over `(b, q)` with the memory coordinate `mm` put back on the reduced axis is `(b, mm, q)`. -/
theorem liftMem (h : S2x9216x2304.Reduces [1] S2x2304) (b : Fin 2) (q : Fin 2304) (mm : Fin 9216) :
    h.lift (ValueIdx.ix2 b q) mm = ValueIdx.ix3 b mm q :=
  funext fun a => Fin.ext (by match a with | ⟨0, _⟩ => rfl | ⟨1, _⟩ => rfl | ⟨2, _⟩ => rfl)

/-- The reference's maximum over the memory axis at `(b, q)`: the fold of `max` from `-∞` over the scores. -/
theorem maxAt (x0 : (⟨S2x64x48x48, .f32⟩ : BufTy).Contents (Elt Ideal))
    (x1 : (⟨S2x64x4x48x48, .f32⟩ : BufTy).Contents (Elt Ideal)) (b : Fin 2) (q : Fin 2304) :
    val_main_v22 (F := Ideal) x0 x1 (ValueIdx.ix2 b q)
      = (Finset.univ : Finset (Fin 9216)).fold max ⊥
          (fun mm => val_main_v21 (F := Ideal) x0 x1 (ValueIdx.ix3 b mm q)) := by
  unfold val_main_v22
  generalize val_main_v21 (F := Ideal) x0 x1 = y
  have h : S2x9216x2304.Reduces [1] S2x2304 := by decide
  refine (Host.reduce_eq_fold_single (FloatOps.maximumf (F := Ideal) (φ := .f32)) y (val_main_cst_4 (F := Ideal))
    reducesTo_S2x9216x2304_S2x2304_d1 h h_S_ (ValueIdx.ix2 b q)).trans ?_
  rw [val_main_cst_4_apply, Ideal.ofBits_def, Cert.Consts.ofBits_ninf]
  have hy : (y ∘ h.lift (ValueIdx.ix2 b q)) = fun mm : Fin 9216 => y (ValueIdx.ix3 b mm q) :=
    funext fun mm => congrArg y (liftMem h b q mm)
  rw [hy]
  rfl

/-- The reference's subtracted shift at `(b, mm, q)`: `max` of `-∞` and the running maximum of the scores at `(b, q)`. -/
theorem shiftAt (x0 : (⟨S2x64x48x48, .f32⟩ : BufTy).Contents (Elt Ideal))
    (x1 : (⟨S2x64x4x48x48, .f32⟩ : BufTy).Contents (Elt Ideal)) (b : Fin 2) (mm : Fin 9216) (q : Fin 2304) :
    val_main_v26 (F := Ideal) x0 x1 (ValueIdx.ix3 b mm q)
      = Cert.Attn.shift (fun mm' =>
          Cert.Attn.score (Ideal.ofBits .f32 0x42200000#32) (Cert.Attn.unitR (Ideal.ofBits .f32 0x2B8CBCCC#32))
            (fun b i q => shapeCast S2x64x2304 x0 shapeCasts_S2x64x48x48_S2x64x2304 (ValueIdx.ix3 b i q))
            (fun b i mm => shapeCast S2x64x9216 x1 shapeCasts_S2x64x4x48x48_S2x64x9216 (ValueIdx.ix3 b i mm))
            b mm' q) := by
  have ei : idx_main_v25 (idx_main_v26 (ValueIdx.ix3 b mm q)) = ValueIdx.ix2 b q :=
    funext fun a => Fin.ext (by match a with | ⟨0, _⟩ => rfl | ⟨1, _⟩ => rfl)
  rw [val_main_v26_apply, val_main_v25_apply, val_main_v24_apply, val_main_v23_apply, val_main_cst_5_apply, ei,
    maxAt, Ideal.ofBits_def, Cert.Consts.ofBits_ninf]
  simp only [scoreAt, Cert.Attn.shift, Ideal.maximumf_def]

/-- The reference's exponential at `(b, mm, q)`: of the score less the shift. -/
theorem expAt (x0 : (⟨S2x64x48x48, .f32⟩ : BufTy).Contents (Elt Ideal))
    (x1 : (⟨S2x64x4x48x48, .f32⟩ : BufTy).Contents (Elt Ideal)) (b : Fin 2) (mm : Fin 9216) (q : Fin 2304) :
    val_main_v28 (F := Ideal) x0 x1 (ValueIdx.ix3 b mm q)
      = Ideal.exp (Cert.Attn.score (Ideal.ofBits .f32 0x42200000#32) (Cert.Attn.unitR (Ideal.ofBits .f32 0x2B8CBCCC#32))
            (fun b i q => shapeCast S2x64x2304 x0 shapeCasts_S2x64x48x48_S2x64x2304 (ValueIdx.ix3 b i q))
            (fun b i mm => shapeCast S2x64x9216 x1 shapeCasts_S2x64x4x48x48_S2x64x9216 (ValueIdx.ix3 b i mm))
            b mm q
          - Cert.Attn.shift (fun mm' =>
              Cert.Attn.score (Ideal.ofBits .f32 0x42200000#32) (Cert.Attn.unitR (Ideal.ofBits .f32 0x2B8CBCCC#32))
                (fun b i q => shapeCast S2x64x2304 x0 shapeCasts_S2x64x48x48_S2x64x2304 (ValueIdx.ix3 b i q))
                (fun b i mm => shapeCast S2x64x9216 x1 shapeCasts_S2x64x4x48x48_S2x64x9216 (ValueIdx.ix3 b i mm))
                b mm' q)) := by
  rw [val_main_v28_apply, val_main_v27_apply, scoreAt, shiftAt]
  simp only [Ideal.hostUnary_exp_def, Ideal.subf_def]

/-- The reference's softmax denominator at `(b, mm, q)`: the sum over the memory axis of those exponentials. -/
theorem denomAt (x0 : (⟨S2x64x48x48, .f32⟩ : BufTy).Contents (Elt Ideal))
    (x1 : (⟨S2x64x4x48x48, .f32⟩ : BufTy).Contents (Elt Ideal)) (b : Fin 2) (mm : Fin 9216) (q : Fin 2304) :
    val_main_v31 (F := Ideal) x0 x1 (ValueIdx.ix3 b mm q)
      = ∑ m2 : Fin 9216, val_main_v28 (F := Ideal) x0 x1 (ValueIdx.ix3 b m2 q) := by
  have ei : idx_main_v30 (idx_main_v31 (ValueIdx.ix3 b mm q)) = ValueIdx.ix2 b q :=
    funext fun a => Fin.ext (by match a with | ⟨0, _⟩ => rfl | ⟨1, _⟩ => rfl)
  have ek : ∀ k : Fin 9216, idx_main_v29 (ValueIdx.ix2 b q) k = ValueIdx.ix3 b k q := fun k =>
    funext fun a => Fin.ext (by match a with | ⟨0, _⟩ => rfl | ⟨1, _⟩ => rfl | ⟨2, _⟩ => rfl)
  rw [val_main_v31_apply, val_main_v30_apply, ei, val_main_v29_apply, val_main_cst_6_apply, Ideal.ofBits_def,
    Ideal.ofBits_zero_f32, zero_add]
  simp only [ek]

/-! ### The last contraction -/

/-- The reference's last matrix product, read at `(b, v, q)`, is the textbook form of the flattened inputs. -/
theorem ref_value (x0 : (⟨S2x64x48x48, .f32⟩ : BufTy).Contents (Elt Ideal))
    (x1 : (⟨S2x64x4x48x48, .f32⟩ : BufTy).Contents (Elt Ideal))
    (x2 : (⟨S2x512x4x48x48, .f32⟩ : BufTy).Contents (Elt Ideal)) (b : Fin 2) (v : Fin 512) (q : Fin 2304) :
    Cert.ReferenceIdeal.Read.val_main_v33 (F := Ideal) x0 x1 x2 (ValueIdx.ix3 b v q)
      = Cert.Attn.softmaxed (Ideal.ofBits .f32 0x2B8CBCCC#32) (Ideal.ofBits .f32 0x42200000#32)
          (fun b i q => shapeCast S2x64x2304 x0 shapeCasts_S2x64x48x48_S2x64x2304 (ValueIdx.ix3 b i q))
          (fun b i mm => shapeCast S2x64x9216 x1 shapeCasts_S2x64x4x48x48_S2x64x9216 (ValueIdx.ix3 b i mm))
          (fun b v mm => shapeCast S2x512x9216 x2 shapeCasts_S2x512x4x48x48_S2x512x9216 (ValueIdx.ix3 b v mm))
          b v q := by
  have el : ∀ k : Fin 9216, lidx_main_v33 (ValueIdx.ix3 b v q) k = ValueIdx.ix3 b v k := fun k =>
    funext fun a => Fin.ext (by match a with | ⟨0, _⟩ => rfl | ⟨1, _⟩ => rfl | ⟨2, _⟩ => rfl)
  have er : ∀ k : Fin 9216, ridx_main_v33 (ValueIdx.ix3 b v q) k = ValueIdx.ix3 b k q := fun k =>
    funext fun a => Fin.ext (by match a with | ⟨0, _⟩ => rfl | ⟨1, _⟩ => rfl | ⟨2, _⟩ => rfl)
  rw [val_main_v33_apply]
  unfold Cert.Attn.softmaxed
  refine Finset.sum_congr rfl fun k _ => ?_
  rw [el, er, val_main_v32_apply, denomAt, expAt]
  simp only [expAt, Ideal.hostDivf_def]
  rfl

end Cert.ReferenceIdeal.RefValue

end
-- ==== Proof.Blocks.lean ====
/-
  The memory axis in blocks: position `1024 · j + r` is row `r` of block `j`, and a sum over the 9216 positions is
  the sum over the nine blocks of the sums over their 1024 rows.
-/
import proofs.«110047_g31954556682489_cont_9to1_1970_15_alg».proof.Proof.Spec

noncomputable section

namespace Cert.Attn

/-- Row `r` of block `j` of the memory axis (taken modulo the axis' length so that it is total in `j`). -/
def blk (j : ℕ) (r : Fin 1024) : Fin 9216 := ⟨(1024 * j + r.val) % 9216, Nat.mod_lt _ (by norm_num)⟩

theorem blk_val {j : ℕ} (hj : j < 9) (r : Fin 1024) : (blk j r).val = 1024 * j + r.val := by
  have hr := r.isLt
  show (1024 * j + r.val) % 9216 = 1024 * j + r.val
  omega

/-- Block and row index, as a pair, are the quotient and remainder of the position by 1024: a bijection of the
    9 × 1024 pairs with the 9216 positions. -/
def blkEquiv : Fin 9 × Fin 1024 ≃ Fin 9216 where
  toFun x := blk x.1.val x.2
  invFun mm := (⟨mm.val / 1024, by have := mm.isLt; omega⟩, ⟨mm.val % 1024, Nat.mod_lt _ (by norm_num)⟩)
  left_inv x := by
    obtain ⟨j, r⟩ := x
    have hv := blk_val j.isLt r
    have hr := r.isLt
    refine Prod.ext (Fin.ext ?_) (Fin.ext ?_)
    · show (blk j.val r).val / 1024 = j.val
      omega
    · show (blk j.val r).val % 1024 = r.val
      omega
  right_inv mm := by
    have hm := mm.isLt
    refine Fin.ext ?_
    show (blk (mm.val / 1024) ⟨mm.val % 1024, _⟩).val = mm.val
    rw [blk_val (by omega)]
    show 1024 * (mm.val / 1024) + mm.val % 1024 = mm.val
    omega

/-- A sum over the memory axis, block by block. -/
theorem sum_blk {M : Type*} [AddCommMonoid M] (f : Fin 9216 → M) :
    ∑ j ∈ Finset.range 9, ∑ r : Fin 1024, f (blk j r) = ∑ mm, f mm := by
  rw [Finset.sum_range (fun j => ∑ r : Fin 1024, f (blk j r)),
    ← Fintype.sum_prod_type' (fun (j : Fin 9) (r : Fin 1024) => f (blk j.val r))]
  exact Fintype.sum_equiv blkEquiv _ _ (fun _ => rfl)

end Cert.Attn

end
-- ==== Proof.Pieces.lean ====
/-
  What each control case of the kernel body leaves in the two accumulators it carries across the memory blocks and,
  at a batch's last block, in the output block: the body's stores read back as values.  At a batch's first block the
  accumulators are reset to zero and then updated, so they end at `update(0)`; at the other blocks they end at
  `update(previous)`; at the last block the output is the quotient of the updated accumulators.
-/
import proofs.«110047_g31954556682489_cont_9to1_1970_15_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The updated normaliser: the previous one plus the column sums of this block's exponentials. -/
abbrev lNext (x0 : Vec F S1x64x2304 .f32) (x1 : Vec F S1x64x1024 .f32) (l : Vec F S1x2304 .f32) : Vec F S1x2304 .f32 :=
  k0_pay7 x0 x1 l

/-- The updated weighted sum: the previous one plus this block's values times this block's exponentials. -/
abbrev accNext (x0 : Vec F S1x64x2304 .f32) (x1 : Vec F S1x64x1024 .f32) (x2 : Vec F S1x512x1024 .f32)
    (a : Vec F S512x2304 .f32) : Vec F S512x2304 .f32 :=
  k0_pay1 (k0_pay6 x0 x1) x2 a

/-- First block of a batch: the normaliser is reset, then updated. -/
theorem first_l (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : cond0_0 i) (hc1 : ¬cond0_1 i) (x0 : Vec F S1x64x2304 .f32) (x1 : Vec F S1x64x1024 .f32) (x2 : Vec F S1x512x1024 .f32) :
    sout0_A_0 c i arg2 harg2 arg3 harg3 arg4 harg4 arg5 harg5 arg6 harg6 arg7 harg7 hc0 hc1 x0 x1 x2 = lNext x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x2304) hz2]
  simp only [View.readAt_eq_ld, harg2.read_unread, harg3.read_unread, View.ld_unit_zero (S := S1x64x2304) hz3,
    View.ld_unit_zero (S := S1x64x1024) hz3, View.readCov_unit_zero (S := S1x2304) _ hz2]

/-- First block of a batch: the weighted sum is reset, then updated. -/
theorem first_acc (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : cond0_0 i) (hc1 : ¬cond0_1 i) (x0 : Vec F S1x64x2304 .f32) (x1 : Vec F S1x64x1024 .f32) (x2 : Vec F S1x512x1024 .f32) :
    sout0_A_1 c i arg2 harg2 arg3 harg3 arg4 harg4 arg5 harg5 arg6 harg6 arg7 harg7 hc0 hc1 x0 x1 x2 = accNext x0 x1 x2 (k0_pay4 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S512x2304) hz2]
  simp only [View.readAt_eq_ld, harg2.read_unread, harg3.read_unread, harg4.read_unread,
    View.ld_unit_zero (S := S1x64x2304) hz3, View.ld_unit_zero (S := S1x64x1024) hz3,
    View.ld_unit_zero (S := S1x512x1024) hz3, View.readCov_unit_zero (S := S512x2304) _ hz2]

/-- A middle block: the normaliser is updated from what the block before left. -/
theorem mid_l (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : ¬cond0_1 i) (x0 : Vec F S1x64x2304 .f32) (x1 : Vec F S1x64x1024 .f32) (x2 : Vec F S1x512x1024 .f32) (xs0 : Vec F S1x2304 .f32) (xs1 : Vec F S512x2304 .f32) :
    sout0_B_0 c i arg2 harg2 arg3 harg3 arg4 harg4 arg5 harg5 arg6 harg6 arg7 harg7 hc0 hc1 x0 x1 x2 xs0 xs1 = lNext x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread,
    harg7.read_unread, View.ld_unit_zero (S := S1x64x2304) hz3, View.ld_unit_zero (S := S1x64x1024) hz3,
    View.ld_unit_zero (S := S1x512x1024) hz3, View.ld_unit_zero (S := S1x2304) hz2, View.ld_unit_zero (S := S512x2304) hz2,
    View.readCov_unit_zero (S := S1x2304) _ hz2, View.readCov_unit_zero (S := S512x2304) _ hz2]

/-- A middle block: the weighted sum is updated from what the block before left. -/
theorem mid_acc (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : ¬cond0_1 i) (x0 : Vec F S1x64x2304 .f32) (x1 : Vec F S1x64x1024 .f32) (x2 : Vec F S1x512x1024 .f32) (xs0 : Vec F S1x2304 .f32) (xs1 : Vec F S512x2304 .f32) :
    sout0_B_1 c i arg2 harg2 arg3 harg3 arg4 harg4 arg5 harg5 arg6 harg6 arg7 harg7 hc0 hc1 x0 x1 x2 xs0 xs1 = accNext x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread,
    harg7.read_unread, View.ld_unit_zero (S := S1x64x2304) hz3, View.ld_unit_zero (S := S1x64x1024) hz3,
    View.ld_unit_zero (S := S1x512x1024) hz3, View.ld_unit_zero (S := S1x2304) hz2, View.ld_unit_zero (S := S512x2304) hz2,
    View.readCov_unit_zero (S := S1x2304) _ hz2, View.readCov_unit_zero (S := S512x2304) _ hz2]

/-- The last block: the normaliser is updated as at a middle block, -/
theorem last_l (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : cond0_1 i) (x0 : Vec F S1x64x2304 .f32) (x1 : Vec F S1x64x1024 .f32) (x2 : Vec F S1x512x1024 .f32) (xs0 : Vec F S1x2304 .f32) (xs1 : Vec F S512x2304 .f32) :
    sout0_C_0 c i arg2 harg2 arg3 harg3 arg4 harg4 arg5 harg5 arg6 harg6 arg7 harg7 hc0 hc1 x0 x1 x2 xs0 xs1 = lNext x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread,
    harg7.read_unread, View.ld_unit_zero (S := S1x64x2304) hz3, View.ld_unit_zero (S := S1x64x1024) hz3,
    View.ld_unit_zero (S := S1x512x1024) hz3, View.ld_unit_zero (S := S1x2304) hz2, View.ld_unit_zero (S := S512x2304) hz2,
    View.readCov_unit_zero (S := S1x2304) _ hz2, View.readCov_unit_zero (S := S512x2304) _ hz2]

/-- so is the weighted sum, -/
theorem last_acc (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : cond0_1 i) (x0 : Vec F S1x64x2304 .f32) (x1 : Vec F S1x64x1024 .f32) (x2 : Vec F S1x512x1024 .f32) (xs0 : Vec F S1x2304 .f32) (xs1 : Vec F S512x2304 .f32) :
    sout0_C_1 c i arg2 harg2 arg3 harg3 arg4 harg4 arg5 harg5 arg6 harg6 arg7 harg7 hc0 hc1 x0 x1 x2 xs0 xs1 = accNext x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread,
    harg7.read_unread, View.ld_unit_zero (S := S1x64x2304) hz3, View.ld_unit_zero (S := S1x64x1024) hz3,
    View.ld_unit_zero (S := S1x512x1024) hz3, View.ld_unit_zero (S := S1x2304) hz2, View.ld_unit_zero (S := S512x2304) hz2,
    View.readCov_unit_zero (S := S1x2304) _ hz2, View.readCov_unit_zero (S := S512x2304) _ hz2]

/-- and the output block is the quotient of the two updated accumulators. -/
theorem last_out (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : cond0_1 i) (x0 : Vec F S1x64x2304 .f32) (x1 : Vec F S1x64x1024 .f32) (x2 : Vec F S1x512x1024 .f32) (xs0 : Vec F S1x2304 .f32) (xs1 : Vec F S512x2304 .f32) :
    out0_C_3 c i arg2 harg2 arg3 harg3 arg4 harg4 arg5 harg5 arg6 harg6 arg7 harg7 hc0 hc1 x0 x1 x2 xs0 xs1 = k0_pay2 (accNext x0 x1 x2 xs1) (lNext x0 x1 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz3]
  simp only [View.readAt_eq_ld, harg2.read_unread, harg3.read_unread, harg4.read_unread, harg6.read_unread,
    harg7.read_unread, View.ld_unit_zero (S := S1x64x2304) hz3, View.ld_unit_zero (S := S1x64x1024) hz3,
    View.ld_unit_zero (S := S1x512x1024) hz3, View.ld_unit_zero (S := S1x2304) hz2, View.ld_unit_zero (S := S512x2304) hz2,
    View.readCov_unit_zero (S := S1x2304) _ hz2, View.readCov_unit_zero (S := S512x2304) _ hz2]

end Cert.KernelIdeal.Pieces

end
-- ==== Proof.Payload.lean ====
/-
  The body's arithmetic read entry by entry over the extended reals.  A block's exponentials: entry `(r, q)` is
  `exp (c · ∑_d k̂ d r · q̂ d q)` of the rescaled key column `r` and query column `q`.  The normaliser's update adds the
  column sums of the exponentials; the weighted sum's update adds the values times the exponentials; the output is
  their quotient.
-/
import proofs.«110047_g31954556682489_cont_9to1_1970_15_alg».proof.Proof.Spec
import proofs.«110047_g31954556682489_cont_9to1_1970_15_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.TcCoe Idealize.ShloMosaic.ValueIdx Cert.KernelIdeal Cert.KernelIdeal.Gen

/-! ## The two matrix products' operand indices -/

theorem lhs1_0 (i : S1024x2304.Idx) (q : dot_S64x1024_S64x2304_S1024x2304_0_0_1_1_n_n.contr.Idx) :
    (dot_S64x1024_S64x2304_S1024x2304_0_0_1_1_n_n.lhsIdx i q 0).val = (q ⟨0, by decide⟩).val :=
  dot_S64x1024_S64x2304_S1024x2304_0_0_1_1_n_n.lhsIdx_val_of_single rfl i q
theorem lhs1_1 (i : S1024x2304.Idx) (q : dot_S64x1024_S64x2304_S1024x2304_0_0_1_1_n_n.contr.Idx) :
    (dot_S64x1024_S64x2304_S1024x2304_0_0_1_1_n_n.lhsIdx i q 1).val = (i 0).val := by
  unfold DotDims.lhsIdx
  rw [dif_neg (show ¬(1 : Fin S64x1024.rank) ∈ dot_S64x1024_S64x2304_S1024x2304_0_0_1_1_n_n.lhsBatch by decide), dif_pos (show (1 : Fin S64x1024.rank) ∈ dot_S64x1024_S64x2304_S1024x2304_0_0_1_1_n_n.lhsNonContracting by decide)]
  rfl
theorem rhs1_0 (i : S1024x2304.Idx) (q : dot_S64x1024_S64x2304_S1024x2304_0_0_1_1_n_n.contr.Idx) :
    (dot_S64x1024_S64x2304_S1024x2304_0_0_1_1_n_n.rhsIdx i q 0).val = (q ⟨0, by decide⟩).val :=
  dot_S64x1024_S64x2304_S1024x2304_0_0_1_1_n_n.rhsIdx_val_of_single rfl i q
theorem rhs1_1 (i : S1024x2304.Idx) (q : dot_S64x1024_S64x2304_S1024x2304_0_0_1_1_n_n.contr.Idx) :
    (dot_S64x1024_S64x2304_S1024x2304_0_0_1_1_n_n.rhsIdx i q 1).val = (i 1).val := by
  unfold DotDims.rhsIdx
  rw [dif_neg (show ¬(1 : Fin S64x2304.rank) ∈ dot_S64x1024_S64x2304_S1024x2304_0_0_1_1_n_n.rhsBatch by decide), dif_pos (show (1 : Fin S64x2304.rank) ∈ dot_S64x1024_S64x2304_S1024x2304_0_0_1_1_n_n.rhsNonContracting by decide)]
  rfl

theorem lhs2_0 (i : S512x2304.Idx) (q : dot_S512x1024_S1024x2304_S512x2304_1_0_0_1_n_n.contr.Idx) :
    (dot_S512x1024_S1024x2304_S512x2304_1_0_0_1_n_n.lhsIdx i q 0).val = (i 0).val := by
  unfold DotDims.lhsIdx
  rw [dif_neg (show ¬(0 : Fin S512x1024.rank) ∈ dot_S512x1024_S1024x2304_S512x2304_1_0_0_1_n_n.lhsBatch by decide), dif_pos (show (0 : Fin S512x1024.rank) ∈ dot_S512x1024_S1024x2304_S512x2304_1_0_0_1_n_n.lhsNonContracting by decide)]
  rfl
theorem lhs2_1 (i : S512x2304.Idx) (q : dot_S512x1024_S1024x2304_S512x2304_1_0_0_1_n_n.contr.Idx) :
    (dot_S512x1024_S1024x2304_S512x2304_1_0_0_1_n_n.lhsIdx i q 1).val = (q ⟨0, by decide⟩).val :=
  dot_S512x1024_S1024x2304_S512x2304_1_0_0_1_n_n.lhsIdx_val_of_single rfl i q
theorem rhs2_0 (i : S512x2304.Idx) (q : dot_S512x1024_S1024x2304_S512x2304_1_0_0_1_n_n.contr.Idx) :
    (dot_S512x1024_S1024x2304_S512x2304_1_0_0_1_n_n.rhsIdx i q 0).val = (q ⟨0, by decide⟩).val :=
  dot_S512x1024_S1024x2304_S512x2304_1_0_0_1_n_n.rhsIdx_val_of_single rfl i q
theorem rhs2_1 (i : S512x2304.Idx) (q : dot_S512x1024_S1024x2304_S512x2304_1_0_0_1_n_n.contr.Idx) :
    (dot_S512x1024_S1024x2304_S512x2304_1_0_0_1_n_n.rhsIdx i q 1).val = (i 1).val := by
  unfold DotDims.rhsIdx
  rw [dif_neg (show ¬(1 : Fin S1024x2304.rank) ∈ dot_S512x1024_S1024x2304_S512x2304_1_0_0_1_n_n.rhsBatch by decide), dif_pos (show (1 : Fin S1024x2304.rank) ∈ dot_S512x1024_S1024x2304_S512x2304_1_0_0_1_n_n.rhsNonContracting by decide)]
  rfl

/-- The scores' product into a zero accumulator: entry `(r, q)` is the inner product of column `r` of the left
    operand with column `q` of the right one. -/
theorem scores_apply (kn : FVec Ideal S64x1024 .f32) (qn : FVec Ideal S64x2304 .f32) (r : Fin 1024) (q : Fin 2304) :
    matmul dot_S64x1024_S64x2304_S1024x2304_0_0_1_1_n_n none kn qn (constant S1024x2304 .f32 0x00000000#32) (ix2 r q)
      = ∑ d : Fin 64, kn (ix2 d r) * qn (ix2 d q) := by
  simp only [matmul]
  rw [Ideal.matmul_constant_zero_apply, ← Equiv.sum_comp (contrEquiv1 dot_S64x1024_S64x2304_S1024x2304_0_0_1_1_n_n 64 rfl rfl).symm]
  refine Finset.sum_congr rfl fun k _ => ?_
  have hk := contrEquiv1_symm_val dot_S64x1024_S64x2304_S1024x2304_0_0_1_1_n_n 64 rfl rfl k
  have el : dot_S64x1024_S64x2304_S1024x2304_0_0_1_1_n_n.lhsIdx (ix2 r q) ((contrEquiv1 dot_S64x1024_S64x2304_S1024x2304_0_0_1_1_n_n 64 rfl rfl).symm k) = ix2 k r := funext fun a => Fin.ext (by
    match a with
    | ⟨0, _⟩ => exact (lhs1_0 _ _).trans hk
    | ⟨1, _⟩ => exact lhs1_1 _ _)
  have er : dot_S64x1024_S64x2304_S1024x2304_0_0_1_1_n_n.rhsIdx (ix2 r q) ((contrEquiv1 dot_S64x1024_S64x2304_S1024x2304_0_0_1_1_n_n 64 rfl rfl).symm k) = ix2 k q := funext fun a => Fin.ext (by
    match a with
    | ⟨0, _⟩ => exact (rhs1_0 _ _).trans hk
    | ⟨1, _⟩ => exact rhs1_1 _ _)
  rw [el, er]

/-- The values' product into a zero accumulator: entry `(v, q)` is row `v` of the values against column `q` of the
    weights. -/
theorem weighted_apply (mv : FVec Ideal S512x1024 .bf16) (p : FVec Ideal S1024x2304 .bf16) (v : Fin 512) (q : Fin 2304) :
    matmul dot_S512x1024_S1024x2304_S512x2304_1_0_0_1_n_n none mv p (constant S512x2304 .f32 0x00000000#32) (ix2 v q)
      = ∑ r : Fin 1024, mv (ix2 v r) * p (ix2 r q) := by
  simp only [matmul]
  rw [Ideal.matmul_constant_zero_apply, ← Equiv.sum_comp (contrEquiv1 dot_S512x1024_S1024x2304_S512x2304_1_0_0_1_n_n 1024 rfl rfl).symm]
  refine Finset.sum_congr rfl fun k _ => ?_
  have hk := contrEquiv1_symm_val dot_S512x1024_S1024x2304_S512x2304_1_0_0_1_n_n 1024 rfl rfl k
  have el : dot_S512x1024_S1024x2304_S512x2304_1_0_0_1_n_n.lhsIdx (ix2 v q) ((contrEquiv1 dot_S512x1024_S1024x2304_S512x2304_1_0_0_1_n_n 1024 rfl rfl).symm k) = ix2 v k := funext fun a => Fin.ext (by
    match a with
    | ⟨0, _⟩ => exact lhs2_0 _ _
    | ⟨1, _⟩ => exact (lhs2_1 _ _).trans hk)
  have er : dot_S512x1024_S1024x2304_S512x2304_1_0_0_1_n_n.rhsIdx (ix2 v q) ((contrEquiv1 dot_S512x1024_S1024x2304_S512x2304_1_0_0_1_n_n 1024 rfl rfl).symm k) = ix2 k q := funext fun a => Fin.ext (by
    match a with
    | ⟨0, _⟩ => exact (rhs2_0 _ _).trans hk
    | ⟨1, _⟩ => exact rhs2_1 _ _)
  rw [el, er]

/-! ## The rescaled columns -/

/-- A block of 64-vectors, one per column, rescaled column by column: entry `(d, j)` is entry `d` of column `j`'s
    rescaled vector. -/
theorem queryUnit (x0 : Vec Ideal S1x64x2304 .f32) (e : Ideal .f32) (d : Fin 64) (j : Fin 2304) :
    mulf (shapeCast S64x2304 x0 shapeCasts_S1x64x2304_S64x2304)
      (broadcastTo S64x2304 (rsqrt (maximumf (shapeCast S1x2304 (multiReduction .add [0] S2304
        (mulf (shapeCast S64x2304 x0 shapeCasts_S1x64x2304_S64x2304) (shapeCast S64x2304 x0 shapeCasts_S1x64x2304_S64x2304))
        0x00000000#32 reduces_S64x2304_S2304 (.inl rfl) rfl) shapeCasts_S2304_S1x2304) (broadcast S1x2304 e)))
        broadcasts_S1x2304_S64x2304) (ix2 d j)
      = Cert.Attn.unitK e (fun d' => x0 (ix3 (0 : Fin 1) d' j)) d := by
  show (shapeCast S64x2304 x0 shapeCasts_S1x64x2304_S64x2304 (ix2 d j)) * (broadcastTo S64x2304 _ broadcasts_S1x2304_S64x2304 (ix2 d j)) = _
  rw [broadcastTo_1b_ab_apply, shapeCast_1ab_ab_apply]
  show x0 (ix3 0 d j) * Ideal.rsqrt (max (shapeCast S1x2304 _ shapeCasts_S2304_S1x2304 (ix2 0 j)) e) = _
  rw [shapeCast_a_1a_apply]
  unfold Cert.Attn.unitK Cert.Attn.sq
  refine congrArg (fun s => x0 (ix3 0 d j) * Ideal.rsqrt (max s e)) ((Ideal.multiReduction_add_single _ _ _ _ _ (ix1 j)).trans ?_)
  refine Finset.sum_congr rfl fun k _ => ?_
  have hk : reduces_S64x2304_S2304.lift (ix1 j) k = ix2 (show Fin 64 from k) j :=
    funext fun a => Fin.ext (by match a with | ⟨0, _⟩ => rfl | ⟨1, _⟩ => rfl)
  show shapeCast S64x2304 x0 shapeCasts_S1x64x2304_S64x2304 _ * shapeCast S64x2304 x0 shapeCasts_S1x64x2304_S64x2304 _
    = x0 (ix3 0 (show Fin 64 from k) j) * x0 (ix3 0 (show Fin 64 from k) j)
  rw [hk, shapeCast_1ab_ab_apply]

/-- A block of 64-vectors, one per column, rescaled column by column: entry `(d, j)` is entry `d` of column `j`'s
    rescaled vector. -/
theorem keyUnit (x1 : Vec Ideal S1x64x1024 .f32) (e : Ideal .f32) (d : Fin 64) (j : Fin 1024) :
    mulf (shapeCast S64x1024 x1 shapeCasts_S1x64x1024_S64x1024)
      (broadcastTo S64x1024 (rsqrt (maximumf (shapeCast S1x1024 (multiReduction .add [0] S1024
        (mulf (shapeCast S64x1024 x1 shapeCasts_S1x64x1024_S64x1024) (shapeCast S64x1024 x1 shapeCasts_S1x64x1024_S64x1024))
        0x00000000#32 reduces_S64x1024_S1024 (.inl rfl) rfl) shapeCasts_S1024_S1x1024) (broadcast S1x1024 e)))
        broadcasts_S1x1024_S64x1024) (ix2 d j)
      = Cert.Attn.unitK e (fun d' => x1 (ix3 (0 : Fin 1) d' j)) d := by
  show (shapeCast S64x1024 x1 shapeCasts_S1x64x1024_S64x1024 (ix2 d j)) * (broadcastTo S64x1024 _ broadcasts_S1x1024_S64x1024 (ix2 d j)) = _
  rw [broadcastTo_1b_ab_apply, shapeCast_1ab_ab_apply]
  show x1 (ix3 0 d j) * Ideal.rsqrt (max (shapeCast S1x1024 _ shapeCasts_S1024_S1x1024 (ix2 0 j)) e) = _
  rw [shapeCast_a_1a_apply]
  unfold Cert.Attn.unitK Cert.Attn.sq
  refine congrArg (fun s => x1 (ix3 0 d j) * Ideal.rsqrt (max s e)) ((Ideal.multiReduction_add_single _ _ _ _ _ (ix1 j)).trans ?_)
  refine Finset.sum_congr rfl fun k _ => ?_
  have hk : reduces_S64x1024_S1024.lift (ix1 j) k = ix2 (show Fin 64 from k) j :=
    funext fun a => Fin.ext (by match a with | ⟨0, _⟩ => rfl | ⟨1, _⟩ => rfl)
  show shapeCast S64x1024 x1 shapeCasts_S1x64x1024_S64x1024 _ * shapeCast S64x1024 x1 shapeCasts_S1x64x1024_S64x1024 _
    = x1 (ix3 0 (show Fin 64 from k) j) * x1 (ix3 0 (show Fin 64 from k) j)
  rw [hk, shapeCast_1ab_ab_apply]

/-! ## The payloads -/

/-- The guard inside the square root, and the scale of the scores. -/
abbrev eps : Ideal .f32 := Named.named (F := Ideal) κ "eps_sq" (φ := .f32) 0x179ABE15#32
abbrev c40 : Ideal .f32 := Ideal.ofBits .f32 0x42200000#32

/-- The score of row `r` of a key block against column `q` of the query block. -/
def blockScore (x0 : Vec Ideal S1x64x2304 .f32) (x1 : Vec Ideal S1x64x1024 .f32) (r : Fin 1024) (q : Fin 2304) : EReal :=
  c40 * ∑ d : Fin 64, Cert.Attn.unitK eps (fun d' => x1 (ix3 (0 : Fin 1) d' r)) d
    * Cert.Attn.unitK eps (fun d' => x0 (ix3 (0 : Fin 1) d' q)) d

/-- A block's exponentials, entry by entry. -/
theorem expBlock_apply (x0 : Vec Ideal S1x64x2304 .f32) (x1 : Vec Ideal S1x64x1024 .f32) (r : Fin 1024) (q : Fin 2304) :
    k0_pay5 x0 x1 (ix2 r q) = Ideal.exp (blockScore x0 x1 r q) := by
  unfold k0_pay5 blockScore
  dsimp only
  refine congrArg (fun s => Ideal.exp (c40 * s)) ?_
  refine (scores_apply _ _ r q).trans ?_
  refine Finset.sum_congr rfl fun d _ => ?_
  exact congrArg₂ (· * ·) (keyUnit x1 eps d r) (queryUnit x0 eps d q)

/-- The normaliser's update, entry by entry: the previous value plus the column sum of the block's exponentials. -/
theorem lNext_apply (x0 : Vec Ideal S1x64x2304 .f32) (x1 : Vec Ideal S1x64x1024 .f32) (l : Vec Ideal S1x2304 .f32)
    (q : Fin 2304) :
    k0_pay7 x0 x1 l (ix2 (0 : Fin 1) q) = l (ix2 (0 : Fin 1) q) + ∑ r : Fin 1024, k0_pay5 x0 x1 (ix2 r q) := by
  unfold k0_pay7
  dsimp only
  rw [shapeCast_self]
  show l (ix2 0 q) + shapeCast S1x2304 _ shapeCasts_S2304_S1x2304 (ix2 0 q) = _
  rw [shapeCast_a_1a_apply]
  refine congrArg (l (ix2 0 q) + ·) ((Ideal.multiReduction_add_single _ _ _ _ _ (ix1 q)).trans ?_)
  refine Finset.sum_congr rfl fun k _ => ?_
  exact congrArg (k0_pay5 x0 x1) (funext fun a => Fin.ext (by match a with | ⟨0, _⟩ => rfl | ⟨1, _⟩ => rfl))

/-- The weighted sum's update, entry by entry: the previous value plus the values' row against the exponentials'
    column. -/
theorem accNext_apply (x0 : Vec Ideal S1x64x2304 .f32) (x1 : Vec Ideal S1x64x1024 .f32) (x2 : Vec Ideal S1x512x1024 .f32)
    (a : Vec Ideal S512x2304 .f32) (v : Fin 512) (q : Fin 2304) :
    k0_pay1 (k0_pay6 x0 x1) x2 a (ix2 v q)
      = a (ix2 v q) + ∑ r : Fin 1024, x2 (ix3 (0 : Fin 1) v r) * k0_pay5 x0 x1 (ix2 r q) := by
  unfold k0_pay1 k0_pay6
  dsimp only
  rw [shapeCast_self]
  refine congrArg (a (ix2 v q) + ·) ((weighted_apply _ _ v q).trans ?_)
  refine Finset.sum_congr rfl fun k _ => ?_
  show shapeCast S512x1024 x2 shapeCasts_S1x512x1024_S512x1024 (ix2 v k) * k0_pay5 x0 x1 (ix2 k q) = _
  rw [shapeCast_1ab_ab_apply]

/-- The output block, entry by entry: the weighted sum over the normaliser. -/
theorem out_apply (a : Vec Ideal S512x2304 .f32) (l : Vec Ideal S1x2304 .f32) (v : Fin 512) (q : Fin 2304) :
    k0_pay2 a l (ix3 (0 : Fin 1) v q) = Ideal.div (a (ix2 v q)) (l (ix2 (0 : Fin 1) q)) := by
  unfold k0_pay2
  rw [shapeCast_ab_1ab_apply]
  show Ideal.div (a (ix2 v q)) (broadcastTo S512x2304 l broadcasts_S1x2304_S512x2304 (ix2 v q)) = _
  rw [broadcastTo_1b_ab_apply]

/-- The reset values are zero. -/
theorem zero_l (q : Fin 2304) : (k0_pay3 (F := Ideal)) (ix2 (0 : Fin 1) q) = 0 := by
  unfold k0_pay3
  rw [shapeCast_self]
  exact Ideal.ofBits_zero_f32

theorem zero_acc (v : Fin 512) (q : Fin 2304) : (k0_pay4 (F := Ideal)) (ix2 v q) = 0 := by
  unfold k0_pay4
  rw [shapeCast_self]
  exact Ideal.ofBits_zero_f32

end Cert.KernelIdeal.Payload

end
-- ==== Proof.InBlocks.lean ====
/-
  What the kernel's three input windows hold at grid point `t`: the grid runs over (batch, memory block), point `t`
  being block `t % 9` of batch `t / 9`; the query window holds the whole query slab of the batch, the key and value
  windows the 1024 memory positions of the block.  The arrays the windows read are the flattened inputs.
-/
import proofs.«110047_g31954556682489_cont_9to1_1970_15_alg».proof.Proof.Spec
import proofs.«110047_g31954556682489_cont_9to1_1970_15_alg».proof.Proof.Blocks
import proofs.«110047_g31954556682489_cont_9to1_1970_15_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.InBlocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The batch of grid point `t`. -/
def bOf (t : Fin cfg0.N) : Fin 2 := ⟨t.val / 9, by have hN : t.val < 18 := lt_of_lt_of_eq t.isLt (show cfg0.N = 18 from N_0); omega⟩

/-- The flattened queries, keys and values of core `c`, by coordinates. -/
abbrev Qm (c : Dev nD) : Fin 2 → Fin 64 → Fin 2304 → EReal := fun b i q =>
  shapeCast S2x64x2304 (m ((c : Thread nD τ).loc main_arg0)) shapeCasts_S2x64x48x48_S2x64x2304 (ix3 b i q)
abbrev Km (c : Dev nD) : Fin 2 → Fin 64 → Fin 9216 → EReal := fun b i mm =>
  shapeCast S2x64x9216 (m ((c : Thread nD τ).loc main_arg1)) shapeCasts_S2x64x4x48x48_S2x64x9216 (ix3 b i mm)
abbrev Wm (c : Dev nD) : Fin 2 → Fin 512 → Fin 9216 → EReal := fun b v mm =>
  shapeCast S2x512x9216 (m ((c : Thread nD τ).loc main_arg2)) shapeCasts_S2x512x4x48x48_S2x512x9216 (ix3 b v mm)

/-- The three input blocks at point `t`, at their literal types. -/
abbrev xq (c : Dev nD) (t : Fin cfg0.N) : Vec Ideal S1x64x2304 .f32 := iblk m c 0 t
abbrev xk (c : Dev nD) (t : Fin cfg0.N) : Vec Ideal S1x64x1024 .f32 := iblk m c 1 t
abbrev xv (c : Dev nD) (t : Fin cfg0.N) : Vec Ideal S1x512x1024 .f32 := iblk m c 2 t

/-- The array the query window reads is the launch's first argument, flattened. -/
theorem V_q (c : Dev nD) : (V m c main_v0 : S2x64x2304.Idx → EReal)
    = shapeCast S2x64x2304 (m ((c : Thread nD τ).loc main_arg0)) shapeCasts_S2x64x48x48_S2x64x2304 := by
  show StableHlo.after hostOps0 (fun b => m (c, b)) (Proc.devRef .tc main_v0) = _
  after_results
  rfl

/-- The array the key window reads is the launch's second argument, flattened. -/
theorem V_k (c : Dev nD) : (V m c main_v1 : S2x64x9216.Idx → EReal)
    = shapeCast S2x64x9216 (m ((c : Thread nD τ).loc main_arg1)) shapeCasts_S2x64x4x48x48_S2x64x9216 := by
  show StableHlo.after hostOps0 (fun b => m (c, b)) (Proc.devRef .tc main_v1) = _
  after_results
  rfl

/-- The array the value window reads is the launch's third argument, flattened. -/
theorem V_v (c : Dev nD) : (V m c main_v2 : S2x512x9216.Idx → EReal)
    = shapeCast S2x512x9216 (m ((c : Thread nD τ).loc main_arg2)) shapeCasts_S2x512x4x48x48_S2x512x9216 := by
  show StableHlo.after hostOps0 (fun b => m (c, b)) (Proc.devRef .tc main_v2) = _
  after_results
  rfl

/-- The query window at point `t` holds the batch's queries. -/
theorem qBlock (c : Dev nD) (t : Fin cfg0.N) (d : Fin 64) (q : Fin 2304) :
    xq m c t (ix3 (0 : Fin 1) d q) = Qm m c (bOf t) d q := by
  have hi := (by decide +kernel : ∀ t : Fin grid0.N,
    win0_0.index t (0 : Fin 3) = t.val / 9 ∧ win0_0.index t 1 = 0 ∧ win0_0.index t 2 = 0) t
  unfold xq iblk
  rw [View.read_apply]
  show V m c main_v0 _ = _
  rw [V_q]
  unfold Qm
  congr 1
  funext a
  apply Fin.ext
  match a with
  | ⟨0, _⟩ => show win0_0.index t 0 * 1 + 1 * 0 = t.val / 9; rw [hi.1]; omega
  | ⟨1, _⟩ => show win0_0.index t 1 * 64 + 1 * d.val = d.val; rw [hi.2.1]; omega
  | ⟨2, _⟩ => show win0_0.index t 2 * 2304 + 1 * q.val = q.val; rw [hi.2.2]; omega

/-- The key window at point `t` holds the keys of the block's memory positions. -/
theorem kBlock (c : Dev nD) (t : Fin cfg0.N) (d : Fin 64) (r : Fin 1024) :
    xk m c t (ix3 (0 : Fin 1) d r) = Km m c (bOf t) d (Cert.Attn.blk (t.val % 9) r) := by
  have hi := (by decide +kernel : ∀ t : Fin grid0.N,
    win0_1.index t (0 : Fin 3) = t.val / 9 ∧ win0_1.index t 1 = 0 ∧ win0_1.index t 2 = t.val % 9) t
  have hb := Cert.Attn.blk_val (j := t.val % 9) (by omega) r
  unfold xk iblk
  rw [View.read_apply]
  show V m c main_v1 _ = _
  rw [V_k]
  unfold Km
  congr 1
  funext a
  apply Fin.ext
  match a with
  | ⟨0, _⟩ => show win0_1.index t 0 * 1 + 1 * 0 = t.val / 9; rw [hi.1]; omega
  | ⟨1, _⟩ => show win0_1.index t 1 * 64 + 1 * d.val = d.val; rw [hi.2.1]; omega
  | ⟨2, _⟩ => show win0_1.index t 2 * 1024 + 1 * r.val = (Cert.Attn.blk (t.val % 9) r).val; rw [hi.2.2, hb]; omega

/-- The value window at point `t` holds the values of the block's memory positions. -/
theorem vBlock (c : Dev nD) (t : Fin cfg0.N) (v : Fin 512) (r : Fin 1024) :
    xv m c t (ix3 (0 : Fin 1) v r) = Wm m c (bOf t) v (Cert.Attn.blk (t.val % 9) r) := by
  have hi := (by decide +kernel : ∀ t : Fin grid0.N,
    win0_2.index t (0 : Fin 3) = t.val / 9 ∧ win0_2.index t 1 = 0 ∧ win0_2.index t 2 = t.val % 9) t
  have hb := Cert.Attn.blk_val (j := t.val % 9) (by omega) r
  unfold xv iblk
  rw [View.read_apply]
  show V m c main_v2 _ = _
  rw [V_v]
  unfold Wm
  congr 1
  funext a
  apply Fin.ext
  match a with
  | ⟨0, _⟩ => show win0_2.index t 0 * 1 + 1 * 0 = t.val / 9; rw [hi.1]; omega
  | ⟨1, _⟩ => show win0_2.index t 1 * 512 + 1 * v.val = v.val; rw [hi.2.1]; omega
  | ⟨2, _⟩ => show win0_2.index t 2 * 1024 + 1 * r.val = (Cert.Attn.blk (t.val % 9) r).val; rw [hi.2.2, hb]; omega

end Cert.KernelIdeal.InBlocks

end
-- ==== Proof.Invariant.lean ====
/-
  The two accumulators the kernel carries across a batch's memory blocks, in closed form: after block `k` of batch
  `b` the normaliser at query `q` is the sum, over the blocks up to `k` and their rows, of the exponentials of the
  scores, and the weighted sum at `(v, q)` the same sum with each exponential weighted by the value at `v`.  By
  induction over the grid points: a batch's first block starts both from zero, every other block adds its share to
  what the block before left.  At a batch's last block the output is their quotient, which is the streaming form of
  the whole memory axis.
-/
import proofs.«110047_g31954556682489_cont_9to1_1970_15_alg».proof.Proof.Spec
import proofs.«110047_g31954556682489_cont_9to1_1970_15_alg».proof.Proof.Blocks
import proofs.«110047_g31954556682489_cont_9to1_1970_15_alg».proof.Proof.Pieces
import proofs.«110047_g31954556682489_cont_9to1_1970_15_alg».proof.Proof.Payload
import proofs.«110047_g31954556682489_cont_9to1_1970_15_alg».proof.Proof.InBlocks

set_option maxRecDepth 16384

noncomputable section

namespace Cert.KernelIdeal.Invariant

open Idealize.ShloMosaic Idealize.ShloMosaic.TcCoe Idealize.ShloMosaic.ValueIdx Idealize.SL.Sem
open Cert.KernelIdeal Cert.KernelIdeal.Gen Cert.KernelIdeal.InBlocks Cert.KernelIdeal.Payload Cert.KernelIdeal.Pieces
open Cert.Attn (blk)

variable (m : (ℓ : Loc nD τ sig) → Buf (Elt Ideal) ℓ)

/-- The exponential of the score of memory position `mm` against query `q` in batch `b`. -/
def E (c : Dev nD) (b : Fin 2) (mm : Fin 9216) (q : Fin 2304) : EReal :=
  Ideal.exp (Cert.Attn.score c40 (Cert.Attn.unitK eps) (Qm m c) (Km m c) b mm q)

/-- The normaliser over the first `k` blocks. -/
def lPart (c : Dev nD) (b : Fin 2) (k : ℕ) (q : Fin 2304) : EReal :=
  ∑ j ∈ Finset.range k, ∑ r : Fin 1024, E m c b (blk j r) q

/-- The weighted sum over the first `k` blocks. -/
def accPart (c : Dev nD) (b : Fin 2) (k : ℕ) (v : Fin 512) (q : Fin 2304) : EReal :=
  ∑ j ∈ Finset.range k, ∑ r : Fin 1024, Wm m c b v (blk j r) * E m c b (blk j r) q

/-- At point `t` the block's exponentials are those of the block's memory positions. -/
theorem expBlock_eq (c : Dev nD) (t : Fin cfg0.N) (r : Fin 1024) (q : Fin 2304) :
    k0_pay5 (xq m c t) (xk m c t) (ix2 r q) = E m c (bOf t) (blk (t.val % 9) r) q := by
  rw [expBlock_apply]
  unfold blockScore E Cert.Attn.score
  simp only [qBlock, kBlock]

/-- One block's step of the normaliser. -/
theorem step_l (c : Dev nD) (t : Fin cfg0.N) (l : Vec Ideal S1x2304 .f32)
    (hl : ∀ q, l (ix2 (0 : Fin 1) q) = lPart m c (bOf t) (t.val % 9) q) (q : Fin 2304) :
    lNext (xq m c t) (xk m c t) l (ix2 (0 : Fin 1) q) = lPart m c (bOf t) (t.val % 9 + 1) q := by
  show k0_pay7 (xq m c t) (xk m c t) l (ix2 (0 : Fin 1) q) = _
  rw [lNext_apply, hl q]
  unfold lPart
  rw [Finset.sum_range_succ]
  exact congrArg (_ + ·) (Finset.sum_congr rfl fun r _ => expBlock_eq m c t r q)

/-- One block's step of the weighted sum. -/
theorem step_acc (c : Dev nD) (t : Fin cfg0.N) (a : Vec Ideal S512x2304 .f32)
    (ha : ∀ v q, a (ix2 v q) = accPart m c (bOf t) (t.val % 9) v q) (v : Fin 512) (q : Fin 2304) :
    accNext (xq m c t) (xk m c t) (xv m c t) a (ix2 v q) = accPart m c (bOf t) (t.val % 9 + 1) v q := by
  show k0_pay1 (k0_pay6 (xq m c t) (xk m c t)) (xv m c t) a (ix2 v q) = _
  rw [accNext_apply, ha v q]
  unfold accPart
  rw [Finset.sum_range_succ]
  exact congrArg (_ + ·) (Finset.sum_congr rfl fun r _ => by rw [vBlock, expBlock_eq])

/-! ## What the generated point-by-point contents are, case by case -/

theorem l_first (c : Dev nD) (t : Fin cfg0.N) (h0 : t.val % 9 = 0) (h8 : ¬t.val % 9 = 8) :
    (outsAt0 m c t.val t.isLt).2.1 = lNext (xq m c t) (xk m c t) (k0_pay3 (F := Ideal)) := by
  rw [outsAt0_A m c t h0 h8]
  dsimp only
  exact first_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h8 ((hcond0_1 t).mp h)) (xq m c t) (xk m c t) (xv m c t)

theorem acc_first (c : Dev nD) (t : Fin cfg0.N) (h0 : t.val % 9 = 0) (h8 : ¬t.val % 9 = 8) :
    (outsAt0 m c t.val t.isLt).2.2 = accNext (xq m c t) (xk m c t) (xv m c t) (k0_pay4 (F := Ideal)) := by
  rw [outsAt0_A m c t h0 h8]
  dsimp only
  exact first_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h8 ((hcond0_1 t).mp h)) (xq m c t) (xk m c t) (xv m c t)

theorem l_mid (c : Dev nD) (t : Fin cfg0.N) (h0 : ¬t.val % 9 = 0) (h8 : ¬t.val % 9 = 8) :
    (outsAt0 m c t.val t.isLt).2.1 = lNext (xq m c t) (xk m c t) (outsAt0 m c (t.val - 1) (Nat.lt_of_le_of_lt (Nat.sub_le _ _) t.isLt)).2.1 := by
  rw [outsAt0_B m c t h0 h8]
  dsimp only
  exact mid_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h8 ((hcond0_1 t).mp h)) (xq m c t) (xk m c t) (xv m c t) (outsAt0 m c (t.val - 1) (Nat.lt_of_le_of_lt (Nat.sub_le _ _) t.isLt)).2.1 (outsAt0 m c (t.val - 1) (Nat.lt_of_le_of_lt (Nat.sub_le _ _) t.isLt)).2.2

theorem acc_mid (c : Dev nD) (t : Fin cfg0.N) (h0 : ¬t.val % 9 = 0) (h8 : ¬t.val % 9 = 8) :
    (outsAt0 m c t.val t.isLt).2.2 = accNext (xq m c t) (xk m c t) (xv m c t) (outsAt0 m c (t.val - 1) (Nat.lt_of_le_of_lt (Nat.sub_le _ _) t.isLt)).2.2 := by
  rw [outsAt0_B m c t h0 h8]
  dsimp only
  exact mid_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h8 ((hcond0_1 t).mp h)) (xq m c t) (xk m c t) (xv m c t) (outsAt0 m c (t.val - 1) (Nat.lt_of_le_of_lt (Nat.sub_le _ _) t.isLt)).2.1 (outsAt0 m c (t.val - 1) (Nat.lt_of_le_of_lt (Nat.sub_le _ _) t.isLt)).2.2

theorem l_last (c : Dev nD) (t : Fin cfg0.N) (h0 : ¬t.val % 9 = 0) (h8 : t.val % 9 = 8) :
    (outsAt0 m c t.val t.isLt).2.1 = lNext (xq m c t) (xk m c t) (outsAt0 m c (t.val - 1) (Nat.lt_of_le_of_lt (Nat.sub_le _ _) t.isLt)).2.1 := by
  rw [outsAt0_C m c t h0 h8]
  dsimp only
  exact last_l (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h8) (xq m c t) (xk m c t) (xv m c t) (outsAt0 m c (t.val - 1) (Nat.lt_of_le_of_lt (Nat.sub_le _ _) t.isLt)).2.1 (outsAt0 m c (t.val - 1) (Nat.lt_of_le_of_lt (Nat.sub_le _ _) t.isLt)).2.2

theorem acc_last (c : Dev nD) (t : Fin cfg0.N) (h0 : ¬t.val % 9 = 0) (h8 : t.val % 9 = 8) :
    (outsAt0 m c t.val t.isLt).2.2 = accNext (xq m c t) (xk m c t) (xv m c t) (outsAt0 m c (t.val - 1) (Nat.lt_of_le_of_lt (Nat.sub_le _ _) t.isLt)).2.2 := by
  rw [outsAt0_C m c t h0 h8]
  dsimp only
  exact last_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h8) (xq m c t) (xk m c t) (xv m c t) (outsAt0 m c (t.val - 1) (Nat.lt_of_le_of_lt (Nat.sub_le _ _) t.isLt)).2.1 (outsAt0 m c (t.val - 1) (Nat.lt_of_le_of_lt (Nat.sub_le _ _) t.isLt)).2.2

theorem out_last (c : Dev nD) (t : Fin cfg0.N) (h0 : ¬t.val % 9 = 0) (h8 : t.val % 9 = 8) :
    (outsAt0 m c t.val t.isLt).1 = k0_pay2 (accNext (xq m c t) (xk m c t) (xv m c t) (outsAt0 m c (t.val - 1) (Nat.lt_of_le_of_lt (Nat.sub_le _ _) t.isLt)).2.2)
      (lNext (xq m c t) (xk m c t) (outsAt0 m c (t.val - 1) (Nat.lt_of_le_of_lt (Nat.sub_le _ _) t.isLt)).2.1) := by
  rw [outsAt0_C m c t h0 h8]
  dsimp only
  exact last_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h8) (xq m c t) (xk m c t) (xv m c t) (outsAt0 m c (t.val - 1) (Nat.lt_of_le_of_lt (Nat.sub_le _ _) t.isLt)).2.1 (outsAt0 m c (t.val - 1) (Nat.lt_of_le_of_lt (Nat.sub_le _ _) t.isLt)).2.2

/-! ## The induction over the grid points -/

/-- After point `n` the carried accumulators hold the partial sums over the blocks of `n`'s batch up to `n`'s. -/
theorem carried (c : Dev nD) (n : ℕ) : ∀ (hn : n < cfg0.N),
    (∀ q, (outsAt0 m c n hn).2.1 (ix2 (0 : Fin 1) q) = lPart m c (bOf ⟨n, hn⟩) (n % 9 + 1) q)
    ∧ (∀ v q, (outsAt0 m c n hn).2.2 (ix2 v q) = accPart m c (bOf ⟨n, hn⟩) (n % 9 + 1) v q) := by
  induction n using Nat.strong_induction_on with
  | _ n ih =>
    intro hn
    have hN : n < 18 := lt_of_lt_of_eq hn (show cfg0.N = 18 from N_0)
    by_cases h0 : n % 9 = 0
    · have h8 : ¬n % 9 = 8 := by omega
      refine ⟨fun q => ?_, fun v q => ?_⟩
      · refine (congrFun (l_first m c ⟨n, hn⟩ h0 h8) _).trans ?_
        refine step_l m c ⟨n, hn⟩ _ (fun q => ?_) q
        rw [zero_l]
        show (0 : EReal) = lPart m c (bOf ⟨n, hn⟩) (n % 9) q
        unfold lPart
        rw [h0, Finset.sum_range_zero]
      · refine (congrFun (acc_first m c ⟨n, hn⟩ h0 h8) _).trans ?_
        refine step_acc m c ⟨n, hn⟩ _ (fun v q => ?_) v q
        rw [zero_acc]
        show (0 : EReal) = accPart m c (bOf ⟨n, hn⟩) (n % 9) v q
        unfold accPart
        rw [h0, Finset.sum_range_zero]
    · have hn1 : n - 1 < cfg0.N := Nat.lt_of_le_of_lt (Nat.sub_le _ _) hn
      obtain ⟨ihl, iha⟩ := ih (n - 1) (by omega) hn1
      have hb : bOf ⟨n - 1, hn1⟩ = bOf ⟨n, hn⟩ := Fin.ext (by show (n - 1) / 9 = n / 9; omega)
      have hk : (n - 1) % 9 + 1 = n % 9 := by omega
      have prevl : ∀ q, (outsAt0 m c (n - 1) hn1).2.1 (ix2 (0 : Fin 1) q) = lPart m c (bOf ⟨n, hn⟩) (n % 9) q :=
        fun q => by rw [← hb, ← hk]; exact ihl q
      have preva : ∀ v q, (outsAt0 m c (n - 1) hn1).2.2 (ix2 v q) = accPart m c (bOf ⟨n, hn⟩) (n % 9) v q :=
        fun v q => by rw [← hb, ← hk]; exact iha v q
      by_cases h8 : n % 9 = 8
      · refine ⟨fun q => ?_, fun v q => ?_⟩
        · refine (congrFun (l_last m c ⟨n, hn⟩ h0 h8) _).trans ?_
          exact step_l m c ⟨n, hn⟩ _ prevl q
        · refine (congrFun (acc_last m c ⟨n, hn⟩ h0 h8) _).trans ?_
          exact step_acc m c ⟨n, hn⟩ _ preva v q
      · refine ⟨fun q => ?_, fun v q => ?_⟩
        · refine (congrFun (l_mid m c ⟨n, hn⟩ h0 h8) _).trans ?_
          exact step_l m c ⟨n, hn⟩ _ prevl q
        · refine (congrFun (acc_mid m c ⟨n, hn⟩ h0 h8) _).trans ?_
          exact step_acc m c ⟨n, hn⟩ _ preva v q

/-- At a batch's last block the output block holds the streaming form of the whole memory axis. -/
theorem out_value (c : Dev nD) (t : Fin cfg0.N) (h8 : t.val % 9 = 8) (v : Fin 512) (q : Fin 2304) :
    (outsAt0 m c t.val t.isLt).1 (ix3 (0 : Fin 1) v q)
      = Cert.Attn.streamed eps c40 (Qm m c) (Km m c) (Wm m c) (bOf t) v q := by
  have h0 : ¬t.val % 9 = 0 := by omega
  obtain ⟨hl, ha⟩ := carried m c t.val t.isLt
  rw [out_last m c t h0 h8, out_apply, ← acc_last m c t h0 h8, ← l_last m c t h0 h8, ha v q, hl q]
  unfold accPart lPart Cert.Attn.streamed
  rw [h8, Cert.Attn.sum_blk (fun mm => Wm m c (bOf t) v mm * E m c (bOf t) mm q),
    Cert.Attn.sum_blk (fun mm => E m c (bOf t) mm q)]
  rfl

end Cert.KernelIdeal.Invariant

end
-- ==== Proof.KernelRun.lean ====
/-
  The kernel's run, read: the output window is written back only at a batch's last memory block, where it holds
  the batch's slab of the streaming form; the two write-backs cover the result array, which the program's last
  line then reshapes.
-/
import proofs.«110047_g31954556682489_cont_9to1_1970_15_alg».proof.Proof.Invariant
import Idealize.ShloMosaic.Lib.Pipeline.Value
import Idealize.ShloMosaic.Lib.StableHlo.Run

set_option maxRecDepth 16384

noncomputable section

namespace Cert.KernelIdeal.KernelRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.InBlocks Cert.KernelIdeal.Payload Cert.KernelIdeal.Invariant

variable (m : (ℓ : Loc nD τ sig) → Buf (Elt Ideal) ℓ) (ρ : Dev nD → PrngReg)

/-- The result array before the last reshape: the streaming form at every (batch, value channel, query). -/
def result (c : Dev nD) : S2x512x2304.Idx → EReal := fun j =>
  Cert.Attn.streamed eps c40 (Qm m c) (Km m c) (Wm m c) (j 0) (j 1) (j 2)

theorem result_apply (c : Dev nD) (b : Fin 2) (v : Fin 512) (q : Fin 2304) :
    result m c (ix3 b v q) = Cert.Attn.streamed eps c40 (Qm m c) (Km m c) (Wm m c) b v q := rfl

/-- The output window's block index at a grid point, decided over the grid: the batch on the first axis, zero on the
    other two (a block is a whole batch slab). -/
theorem idx_facts : ∀ t : Fin cfg0.N, win0_3.index t (0 : Fin 3) = t.val / 9 ∧ win0_3.index t 1 = 0 ∧ win0_3.index t 2 = 0 :=
  (by decide +kernel : ∀ t : Fin grid0.N, win0_3.index t (0 : Fin 3) = t.val / 9 ∧ win0_3.index t 1 = 0 ∧ win0_3.index t 2 = 0)

/-- What a writing-back point writes is its block of `result`: the point is a batch's last, where the window holds
    the batch's slab of the streaming form, and the block sits in the array at (batch, 0, 0). -/
theorem flushed_eq (c : Dev nD) (t : Fin cfg0.N) (hf : (cfg0.win 3).flush t = true) :
    (dats m 0 c).flushed 3 t = ((cfg0.win 3).blk t).view.read (Elt Ideal) (result m c) := by
  have h8 : t.val % 9 = 8 := (flush0_3 t).mp hf
  obtain ⟨e0, e1, e2⟩ := idx_facts t
  show (cfg0.win 3).cut (grid0.coords t) ((dats m 0 c).after 3 t) = _
  rw [after0_3]
  funext y
  rw [View.read_apply]
  obtain ⟨u, v, q, rfl⟩ : ∃ (u : Fin 1) (v : Fin 512) (q : Fin 2304), y = ix3 u v q := ⟨y 0, y 1, y 2, eq_ix3 y⟩
  obtain rfl : u = 0 := Subsingleton.elim _ _
  show (outsAt0 m c t.val t.isLt).1 (ix3 (0 : Fin 1) v q) = result m c _
  rw [out_value m c t h8 v q, ← result_apply m c (bOf t) v q]
  congr 1
  funext a
  apply Fin.ext
  match a with
  | ⟨0, _⟩ => show t.val / 9 = win0_3.index t 0 * 1 + 1 * 0; rw [e0]; omega
  | ⟨1, _⟩ => show v.val = win0_3.index t 1 * 512 + 1 * v.val; rw [e1]; omega
  | ⟨2, _⟩ => show q.val = win0_3.index t 2 * 2304 + 1 * q.val; rw [e2]; omega

/-- Every index of the result array lies in the block written back at the last point of its batch. -/
theorem cover (i : S2x512x2304.Idx) :
    ∃ t : Fin cfg0.N, (cfg0.win 3).flush t = true ∧ i ∈ ((cfg0.win 3).blk t).view.set := by
  have hN : cfg0.N = 18 := N_0
  have hb : (i 0).val < 2 := (i 0).isLt
  have hv : (i 1).val < 512 := (i 1).isLt
  have hq : (i 2).val < 2304 := (i 2).isLt
  obtain ⟨t, ht⟩ : ∃ t : Fin cfg0.N, t.val = 9 * (i 0).val + 8 := ⟨⟨9 * (i 0).val + 8, by rw [hN]; omega⟩, rfl⟩
  obtain ⟨e0, e1, e2⟩ := idx_facts t
  refine ⟨t, (flush0_3 t).mpr (by rw [ht]; omega), ?_⟩
  show i ∈ ((View.whole main_v3).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e0, ht]; omega
  | ⟨1, _⟩ => show win0_3.index t 1 * 512 ≤ (i 1).val ∧ (i 1).val < win0_3.index t 1 * 512 + 512; rw [e1]; omega
  | ⟨2, _⟩ => show win0_3.index t 2 * 2304 ≤ (i 2).val ∧ (i 2).val < win0_3.index t 2 * 2304 + 2304; rw [e2]; omega

/-- After the run the result array holds `result`. -/
theorem final (c : Dev nD) : (dats m 0 c).arrAt 3 cfg0.N = result m c := by
  exact (dats m 0 c).arrAt_eq_of_cover 3 (result m c) (flushed_eq m c) cover

/-- The run, read: the program's result is the reshaped `result`, the arguments unchanged. -/
theorem run : θ_run defs (onTc (τ := τ) (main (F := Ideal))) ⟨m, fun _ => 0, ρ⟩ fun r => ∀ c : Dev nD,
      r.2.mem ((c.tc : Thread nD τ).loc main_v4) = shapeCast S2x512x48x48 (result m c) shapeCasts_S2x512x2304_S2x512x48x48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · refine ((h c).2 main_v4 (Pipeline.mem_restRefs_of main_v4 (by decide) (by decide))).trans ?_
    unfold Pipeline.afterTail₀
    show StableHlo.after hostOps1 _ (Proc.devRef .tc main_v4) = _
    after_results
    have hw : Pipeline.withArrays (cfgs 0).spec c (V0 m c) (fun w => (dats m 0 c).arrAt w (cfgs 0).N)
        (Proc.devRef .tc main_v3) = result m c :=
      (Pipeline.withArrays_arr spec0 launch0.win.arr_inj c _ _ 3).trans (final m c)
    rw [hw]
    rfl
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.KernelRun

end
-- ==== Proof.lean ====
/-
  A streaming attention kernel against softmax attention.

  Per batch the kernel keeps the whole query slab resident and streams the memory axis in nine blocks of 1024
  positions.  Queries and keys are rescaled to unit length along the 64 channels; a block's scores are
  `40 · k̂ᵀ q̂`; the kernel accumulates the column sums of `exp` of the scores and the values times those exponentials
  across the blocks, and at the last block divides the one by the other.  The reference rescales, forms all scores,
  takes a softmax over the memory axis (stabilised by subtracting the maximum) and multiplies by the values.

  Over the extended reals, on finite inputs, the two agree: the block-by-block sums regroup to sums over the whole
  memory axis (addition is commutative and associative); the stabilising shift cancels between the softmax's
  numerator and denominator; and the kernel's guard inside the square root is named as the exact square of the
  reference's guard outside it, so the two rescalings are one function.
-/
import proofs.«110047_g31954556682489_cont_9to1_1970_15_alg».proof.Defs
import proofs.«110047_g31954556682489_cont_9to1_1970_15_alg».proof.Proof.Gen.Kernel
import proofs.«110047_g31954556682489_cont_9to1_1970_15_alg».proof.Proof.Gen.Kernel.Skeleton
import proofs.«110047_g31954556682489_cont_9to1_1970_15_alg».proof.Proof.Gen.Kernel.Launch
import proofs.«110047_g31954556682489_cont_9to1_1970_15_alg».proof.Proof.Gen.Kernel.Points
import proofs.«110047_g31954556682489_cont_9to1_1970_15_alg».proof.Proof.Gen.Kernel.Frame
import proofs.«110047_g31954556682489_cont_9to1_1970_15_alg».proof.Proof.Gen.KernelIdeal
import proofs.«110047_g31954556682489_cont_9to1_1970_15_alg».proof.Proof.Gen.KernelIdeal.Skeleton
import proofs.«110047_g31954556682489_cont_9to1_1970_15_alg».proof.Proof.Gen.KernelIdeal.Launch
import proofs.«110047_g31954556682489_cont_9to1_1970_15_alg».proof.Proof.Gen.KernelIdeal.Points
import proofs.«110047_g31954556682489_cont_9to1_1970_15_alg».proof.Proof.Gen.KernelIdeal.Frame
import proofs.«110047_g31954556682489_cont_9to1_1970_15_alg».proof.Proof.Gen.ReferenceIdeal
import proofs.«110047_g31954556682489_cont_9to1_1970_15_alg».proof.Proof.Gen.Pre_finite_inputs
import proofs.«110047_g31954556682489_cont_9to1_1970_15_alg».proof.Proof.Gen.ReferenceIdeal.Run
import proofs.«110047_g31954556682489_cont_9to1_1970_15_alg».proof.Proof.Gen.ReferenceIdeal.Read
import proofs.«110047_g31954556682489_cont_9to1_1970_15_alg».proof.Proof.Softmax
import proofs.«110047_g31954556682489_cont_9to1_1970_15_alg».proof.Proof.Consts
import proofs.«110047_g31954556682489_cont_9to1_1970_15_alg».proof.Proof.Finite
import proofs.«110047_g31954556682489_cont_9to1_1970_15_alg».proof.Proof.RefValue
import proofs.«110047_g31954556682489_cont_9to1_1970_15_alg».proof.Proof.KernelRun
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The three rewrites of the idealisation: the guard named (at its two sites) as the rational the table gives it,
    and the narrowing of the exponentials to bf16 and back, which is the identity on extended reals. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl,
    IdealRules.truncf_extf.statement Cert.KernelIdeal.S1024x2304 .f32 .bf16⟩

/-- Both programs end with the same reshape of a `[2, 512, 2304]` array; the kernel's array is the streaming form of
    the flattened inputs, the reference's the textbook form of the same, and on finite inputs these are equal. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2]
  unfold Cert.ReferenceIdeal.Read.val_main_v34
  refine congrArg (fun y => shapeCast Cert.KernelIdeal.S2x512x48x48 y _) ?_
  funext j
  obtain ⟨b, v, q, rfl⟩ : ∃ (b : Fin 2) (v : Fin 512) (q : Fin 2304), j = ix3 b v q := ⟨j 0, j 1, j 2, eq_ix3 j⟩
  obtain ⟨f0, f1, f2⟩ := Cert.Finite.finite_of_pre _ _ _ (hpre c)
  have he : Cert.KernelIdeal.Payload.eps
      = ((5316911940649 / 5316911983139663491615228241121378304 : ℝ) : EReal) := Cert.Consts.named_eps
  have hc : Cert.KernelIdeal.Payload.c40 = ((40 : ℝ) : EReal) := Cert.Consts.ofBits_forty
  rw [Cert.ReferenceIdeal.RefValue.ref_value, Cert.KernelIdeal.KernelRun.result_apply,
    Cert.Consts.ofBits_del, Cert.Consts.ofBits_forty, he, hc]
  exact (Cert.Attn.streamed_eq_softmaxed Cert.Consts.del_pos Cert.Consts.eps_eq_sq _ _ _
    (fun b i q => f0 _) (fun b i mm => f1 _) (fun b v mm => f2 _) _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
